-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S102000x12 : Shape := ⟨2, ![102000, 12]⟩
abbrev S102000 : Shape := ⟨1, ![102000]⟩
abbrev S1000000 : Shape := ⟨1, ![1000000]⟩
abbrev S30001x128 : Shape := ⟨2, ![30001, 128]⟩
abbrev S128x128 : Shape := ⟨2, ![128, 128]⟩
abbrev S128 : Shape := ⟨1, ![128]⟩
abbrev S_ : Shape := ⟨0, ![]⟩

class Facts : Prop where
  bcast_S_S102000 : S_.BroadcastsInDim S102000 (![] : Fin 0 → Fin S102000.rank)
  reducesTo_S102000_S_d0 : S102000.ReducesTo [0] S_
  h_S_ : 0 < S_.numel
  bcast_S_S30001x128 : S_.BroadcastsInDim S30001x128 (![] : Fin 0 → Fin S30001x128.rank)
  reducesTo_S30001x128_S_d0_1 : S30001x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg7 : FVec F S128 .f32) (main_arg8 : FVec F S128x128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_v33

def fn {F : FTy → Type} [FloatOps F] (main_arg0 : IVec S102000x12 32) (main_arg1 : FVec F S102000 .f32) (main_arg2 : IVec S1000000 32) (main_arg3 : IVec S1000000 32) (main_arg4 : FVec F S30001x128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S102000 .f32 := Host.absf main_arg1
  let main_cst : FVec F S_ .f32 := constant S_ .f32 0x7F800000#32
  let main_v1 : FVec F S102000 .f32 := broadcastInDim S102000 ![] bcast_S_S102000 main_cst
  let main_v2 : IVec S102000 1 := cmpf .olt main_v0 main_v1
  let main_c : IVec S_ 1 := constantI S_ 1 1#1
  let main_v3 : IVec S_ 1 := (fun x v => Host.reduce IntOp.andi x v reducesTo_S102000_S_d0 h_S_) main_v2 main_c
  let main_v4 : FVec F S30001x128 .f32 := Host.absf main_arg4
  let main_cst_0 : FVec F S_ .f32 := constant S_ .f32 0x7F800000#32
  let main_v5 : FVec F S30001x128 .f32 := broadcastInDim S30001x128 ![] bcast_S_S30001x128 main_cst_0
  let main_v6 : IVec S30001x128 1 := cmpf .olt main_v4 main_v5
  let main_c_1 : IVec S_ 1 := constantI S_ 1 1#1
  let main_v7 : IVec S_ 1 := (fun x v => Host.reduce IntOp.andi x v reducesTo_S30001x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_v13 main_v16
-- ==== Kernel.lean ====
abbrev S102000x12 : Shape := ⟨2, ![102000, 12]⟩
abbrev S102000 : Shape := ⟨1, ![102000]⟩
abbrev S1000000 : Shape := ⟨1, ![1000000]⟩
abbrev S30001x128 : Shape := ⟨2, ![30001, 128]⟩
abbrev S128x128 : Shape := ⟨2, ![128, 128]⟩
abbrev S128 : Shape := ⟨1, ![128]⟩
abbrev S_ : Shape := ⟨0, ![]⟩
abbrev S102000x12x1 : Shape := ⟨3, ![102000, 12, 1]⟩
abbrev S102000x12x128 : Shape := ⟨3, ![102000, 12, 128]⟩
abbrev S102000x1 : Shape := ⟨2, ![102000, 1]⟩
abbrev S102000x128 : Shape := ⟨2, ![102000, 128]⟩
abbrev S1200x12x128 : Shape := ⟨3, ![1200, 12, 128]⟩
abbrev S1200x1 : Shape := ⟨2, ![1200, 1]⟩
abbrev S1200x128 : Shape := ⟨2, ![1200, 128]⟩
abbrev S1000000x1 : Shape := ⟨2, ![1000000, 1]⟩
abbrev S1000000x128 : Shape := ⟨2, ![1000000, 128]⟩
abbrev S1x128 : Shape := ⟨2, ![1, 128]⟩
abbrev S3000x128 : Shape := ⟨2, ![3000, 128]⟩

abbrev nBuf : Space → Nat
  | .hbm => 69
  | .vmem => 24
  | .smem => 0
  | _ => 0

abbrev bufTy : (tb : Table) → Fin (tcTables nBuf tb) → BufTy
  | .hbm, ⟨0, _⟩ => ⟨S102000x12, .i32⟩
  | .hbm, ⟨1, _⟩ => ⟨S102000, .f32⟩
  | .hbm, ⟨2, _⟩ => ⟨S1000000, .i32⟩
  | .hbm, ⟨3, _⟩ => ⟨S1000000, .i32⟩
  | .hbm, ⟨4, _⟩ => ⟨S30001x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S102000x12, .i32⟩
  | .hbm, ⟨13, _⟩ => ⟨S102000x12, .i1⟩
  | .hbm, ⟨14, _⟩ => ⟨S_, .i32⟩
  | .hbm, ⟨15, _⟩ => ⟨S102000x12, .i32⟩
  | .hbm, ⟨16, _⟩ => ⟨S102000x12, .i32⟩
  | .hbm, ⟨17, _⟩ => ⟨S102000x12, .i32⟩
  | .hbm, ⟨18, _⟩ => ⟨S102000x12x1, .i32⟩
  | .hbm, ⟨19, _⟩ => ⟨S102000x12x128, .f32⟩
  | .hbm, ⟨20, _⟩ => ⟨S102000x1, .f32⟩
  | .hbm, ⟨21, _⟩ => ⟨S102000x128, .f32⟩
  | .hbm, ⟨22, _⟩ => ⟨S_, .f32⟩
  | .hbm, ⟨23, _⟩ => ⟨S1000000, .f32⟩
  | .hbm, ⟨24, _⟩ => ⟨S_, .f32⟩
  | .hbm, ⟨25, _⟩ => ⟨S102000, .f32⟩
  | .hbm, ⟨26, _⟩ => ⟨S1000000x1, .i32⟩
  | .hbm, ⟨27, _⟩ => ⟨S102000, .f32⟩
  | .hbm, ⟨28, _⟩ => ⟨S_, .f32⟩
  | .hbm, ⟨29, _⟩ => ⟨S102000, .f32⟩
  | .hbm, ⟨30, _⟩ => ⟨S102000, .f32⟩
  | .hbm, ⟨31, _⟩ => ⟨S_, .f32⟩
  | .hbm, ⟨32, _⟩ => ⟨S102000, .f32⟩
  | .hbm, ⟨33, _⟩ => ⟨S102000, .f32⟩
  | .hbm, ⟨34, _⟩ => ⟨S102000x1, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x128, .f32⟩
  | .hbm, ⟨44, _⟩ => ⟨S_, .f32⟩
  | .hbm, ⟨45, _⟩ => ⟨S102000x128, .f32⟩
  | .hbm, ⟨46, _⟩ => ⟨S1000000x1, .i32⟩
  | .hbm, ⟨47, _⟩ => ⟨S102000x128, .f32⟩
  | .hbm, ⟨48, _⟩ => ⟨S102000x128, .f32⟩
  | .hbm, ⟨49, _⟩ => ⟨S102000x128, .f32⟩
  | .hbm, ⟨50, _⟩ => ⟨S1x128, .f32⟩
  | .hbm, ⟨51, _⟩ => ⟨S102000x128, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x128, .f32⟩
  | .hbm, ⟨61, _⟩ => ⟨S_, .f32⟩
  | .hbm, ⟨62, _⟩ => ⟨S102000x128, .f32⟩
  | .hbm, ⟨63, _⟩ => ⟨S1000000x1, .i32⟩
  | .hbm, ⟨64, _⟩ => ⟨S102000x128, .f32⟩
  | .hbm, ⟨65, _⟩ => ⟨S102000x128, .f32⟩
  | .hbm, ⟨66, _⟩ => ⟨S102000x128, .f32⟩
  | .hbm, ⟨67, _⟩ => ⟨S1x128, .f32⟩
  | .hbm, ⟨68, _⟩ => ⟨S102000x128, .f32⟩
  | .local _ .vmem, ⟨0, _⟩ => ⟨S1200x12x128, .f32⟩
  | .local _ .vmem, ⟨1, _⟩ => ⟨S1200x12x128, .f32⟩
  | .local _ .vmem, ⟨2, _⟩ => ⟨S1200x1, .f32⟩
  | .local _ .vmem, ⟨3, _⟩ => ⟨S1200x1, .f32⟩
  | .local _ .vmem, ⟨4, _⟩ => ⟨S1200x128, .f32⟩
  | .local _ .vmem, ⟨5, _⟩ => ⟨S1200x128, .f32⟩
  | .local _ .vmem, ⟨6, _⟩ => ⟨S3000x128, .f32⟩
  | .local _ .vmem, ⟨7, _⟩ => ⟨S3000x128, .f32⟩
  | .local _ .vmem, ⟨8, _⟩ => ⟨S3000x128, .f32⟩
  | .local _ .vmem, ⟨9, _⟩ => ⟨S3000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S3000x128, .f32⟩
  | .local _ .vmem, ⟨14, _⟩ => ⟨S3000x128, .f32⟩
  | .local _ .vmem, ⟨15, _⟩ => ⟨S3000x128, .f32⟩
  | .local _ .vmem, ⟨16, _⟩ => ⟨S3000x128, .f32⟩
  | .local _ .vmem, ⟨17, _⟩ => ⟨S3000x128, .f32⟩
  | .local _ .vmem, ⟨18, _⟩ => ⟨S3000x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S3000x128, .f32⟩
  | .local _ .vmem, ⟨23, _⟩ => ⟨S3000x128, .f32⟩
  | _, _ => ⟨S102000x12, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![85], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x12x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![34], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S3000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![34], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S3000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S102000x12 : S_.BroadcastsInDim S102000x12 (![] : Fin 0 → Fin S102000x12.rank)
  bcast_S102000x12_S102000x12x1_0_1 : S102000x12.BroadcastsInDim S102000x12x1 (![0, 1] : Fin 2 → Fin S102000x12x1.rank)
  bcast_S102000_S102000x1_0 : S102000.BroadcastsInDim S102000x1 (![0] : Fin 1 → Fin S102000x1.rank)
  inb_S1200x12x128_S1200x12x128_0_0_0 : ∀ a, (![0, 0, 0] : Fin 3 → Nat) a + S1200x12x128.size a ≤ S1200x12x128.size a
  h_S1200x12x128 : 0 < S1200x12x128.numel
  shapeCasts_S1200x12x128_S1200x12x128 : S1200x12x128.ShapeCasts S1200x12x128
  reduces_S1200x12x128_S1200x128 : S1200x12x128.Reduces [1] S1200x128
  inb_S1200x1_S1200x1_0_0 : ∀ a, (![0, 0] : Fin 2 → Nat) a + S1200x1.size a ≤ S1200x1.size a
  h_S1200x1 : 0 < S1200x1.numel
  shapeCasts_S1200x1_S1200x1 : S1200x1.ShapeCasts S1200x1
  broadcasts_S1200x1_S1200x128 : S1200x1.Broadcasts S1200x128
  inb_S1200x128_S1200x128_0_0 : ∀ a, (![0, 0] : Fin 2 → Nat) a + S1200x128.size a ≤ S1200x128.size a
  h_S1200x128 : 0 < S1200x128.numel
  bcast_S_S1000000 : S_.BroadcastsInDim S1000000 (![] : Fin 0 → Fin S1000000.rank)
  bcast_S_S102000 : S_.BroadcastsInDim S102000 (![] : Fin 0 → Fin S102000.rank)
  bcast_S1000000_S1000000x1_0 : S1000000.BroadcastsInDim S1000000x1 (![0] : Fin 1 → Fin S1000000x1.rank)
  bcast_S_S102000x128 : S_.BroadcastsInDim S102000x128 (![] : Fin 0 → Fin S102000x128.rank)
  bcast_S102000x1_S102000x128_0_1 : S102000x1.BroadcastsInDim S102000x128 (![0, 1] : Fin 2 → Fin S102000x128.rank)
  bcast_S128_S1x128_1 : S128.BroadcastsInDim S1x128 (![1] : Fin 1 → Fin S1x128.rank)
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  gather_S30001x128_S102000x12x1_S102000x12x128_2_0_n_n_0_2_1128_wf : GatherDims.WF S30001x128 S102000x12x1 S102000x12x128 [2] [0] [] [0] [] 2 ![1, 128]
  scatter_S102000_S1000000x1_S1000000_n_0_0_1_wf : ScatterDims.WF S102000 S1000000x1 S1000000 [] [0] [0] 1
  gather_S102000x128_S1000000x1_S1000000x128_1_0_n_n_0_1_1128_wf : GatherDims.WF S102000x128 S1000000x1 S1000000x128 [1] [0] [] [0] [] 1 ![1, 128]
  scatter_S102000x128_S1000000x1_S1000000x128_1_0_0_1_wf : ScatterDims.WF S102000x128 S1000000x1 S1000000x128 [1] [0] [0] 1
  dot_S3000x128_S128x128_S3000x128_1_0_0_1_n_n_wf : DotDims.WF S3000x128 S128x128 S3000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x12x128.size a ≤ S102000x12x128.size a
  hwx0_0 : ∀ i : grid0.Coords, EltTy.bits .f32 = 32 ∨ (Rect.block (s := S102000x12x128) S1200x12x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1200x1.size a ≤ S102000x1.size a
  hwx0_1 : ∀ i : grid0.Coords, EltTy.bits .f32 = 32 ∨ (Rect.block (s := S102000x1) S1200x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1200x128.size a ≤ S102000x128.size a
  hwx0_2 : ∀ i : grid0.Coords, EltTy.bits .f32 = 32 ∨ (Rect.block (s := S102000x128) S1200x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x128.size a ≤ S102000x128.size a
  hwx1_0 : ∀ i : grid1.Coords, EltTy.bits .f32 = 32 ∨ (Rect.block (s := S102000x128) S3000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x128.size a ≤ S102000x128.size a
  hwx1_1 : ∀ i : grid1.Coords, EltTy.bits .f32 = 32 ∨ (Rect.block (s := S102000x128) S3000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3000x128.size a ≤ S102000x128.size a
  hwx1_5 : ∀ i : grid1.Coords, EltTy.bits .f32 = 32 ∨ (Rect.block (s := S102000x128) S3000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x128.size a ≤ S102000x128.size a
  hwx2_0 : ∀ i : grid2.Coords, EltTy.bits .f32 = 32 ∨ (Rect.block (s := S102000x128) S3000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x128.size a ≤ S102000x128.size a
  hwx2_1 : ∀ i : grid2.Coords, EltTy.bits .f32 = 32 ∨ (Rect.block (s := S102000x128) S3000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3000x128.size a ≤ S102000x128.size a
  hwx2_5 : ∀ i : grid2.Coords, EltTy.bits .f32 = 32 ∨ (Rect.block (s := S102000x128) S3000x128.size (cc2_transform_5 i) (hinb2_5 i)).WholeWords (EltTy.packing .f32)

variable [Facts₀]

def gather_S30001x128_S102000x12x1_S102000x12x128_2_0_n_n_0_2_1128 : GatherDims S30001x128 S102000x12x1 S102000x12x128 where
  offsetDims := [2]
  collapsedSliceDims := [0]
  operandBatchingDims := []
  startIndicesBatchingDims := []
  startIndexMap := [0]
  indexVectorDim := 2
  sliceSizes := ![1, 128]
  wf := gather_S30001x128_S102000x12x1_S102000x12x128_2_0_n_n_0_2_1128_wf
def scatter_S102000_S1000000x1_S1000000_n_0_0_1 : ScatterDims S102000 S1000000x1 S1000000 where
  updateWindowDims := []
  insertedWindowDims := [0]
  scatterDimsToOperandDims := [0]
  indexVectorDim := 1
  wf := scatter_S102000_S1000000x1_S1000000_n_0_0_1_wf
def gather_S102000x128_S1000000x1_S1000000x128_1_0_n_n_0_1_1128 : GatherDims S102000x128 S1000000x1 S1000000x128 where
  offsetDims := [1]
  collapsedSliceDims := [0]
  operandBatchingDims := []
  startIndicesBatchingDims := []
  startIndexMap := [0]
  indexVectorDim := 1
  sliceSizes := ![1, 128]
  wf := gather_S102000x128_S1000000x1_S1000000x128_1_0_n_n_0_1_1128_wf
def scatter_S102000x128_S1000000x1_S1000000x128_1_0_0_1 : ScatterDims S102000x128 S1000000x1 S1000000x128 where
  updateWindowDims := [1]
  insertedWindowDims := [0]
  scatterDimsToOperandDims := [0]
  indexVectorDim := 1
  wf := scatter_S102000x128_S1000000x1_S1000000x128_1_0_0_1_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf

abbrev win0_0 : Pipeline.Window sig grid0 :=
  Pipeline.Window.ofSpec (Memref.whole main_v6) S1200x12x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1200x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S3000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S3000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S3000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S3000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S3000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S3000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S102000x12 : Shape := ⟨2, ![102000, 12]⟩
abbrev S102000 : Shape := ⟨1, ![102000]⟩
abbrev S1000000 : Shape := ⟨1, ![1000000]⟩
abbrev S30001x128 : Shape := ⟨2, ![30001, 128]⟩
abbrev S128x128 : Shape := ⟨2, ![128, 128]⟩
abbrev S128 : Shape := ⟨1, ![128]⟩
abbrev S_ : Shape := ⟨0, ![]⟩
abbrev S102000x12x1 : Shape := ⟨3, ![102000, 12, 1]⟩
abbrev S102000x12x128 : Shape := ⟨3, ![102000, 12, 128]⟩
abbrev S102000x128 : Shape := ⟨2, ![102000, 128]⟩
abbrev S102000x1 : Shape := ⟨2, ![102000, 1]⟩
abbrev S1000000x1 : Shape := ⟨2, ![1000000, 1]⟩
abbrev S1000000x128 : Shape := ⟨2, ![1000000, 128]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S102000x12, .i32⟩
  | .hbm, ⟨1, _⟩ => ⟨S102000, .f32⟩
  | .hbm, ⟨2, _⟩ => ⟨S1000000, .i32⟩
  | .hbm, ⟨3, _⟩ => ⟨S1000000, .i32⟩
  | .hbm, ⟨4, _⟩ => ⟨S30001x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S102000x12, .i32⟩
  | .hbm, ⟨13, _⟩ => ⟨S102000x12, .i1⟩
  | .hbm, ⟨14, _⟩ => ⟨S_, .i32⟩
  | .hbm, ⟨15, _⟩ => ⟨S102000x12, .i32⟩
  | .hbm, ⟨16, _⟩ => ⟨S102000x12, .i32⟩
  | .hbm, ⟨17, _⟩ => ⟨S102000x12, .i32⟩
  | .hbm, ⟨18, _⟩ => ⟨S102000x12x1, .i32⟩
  | .hbm, ⟨19, _⟩ => ⟨S102000x12x128, .f32⟩
  | .hbm, ⟨20, _⟩ => ⟨S_, .f32⟩
  | .hbm, ⟨21, _⟩ => ⟨S102000x128, .f32⟩
  | .hbm, ⟨22, _⟩ => ⟨S102000x1, .f32⟩
  | .hbm, ⟨23, _⟩ => ⟨S102000x128, .f32⟩
  | .hbm, ⟨24, _⟩ => ⟨S102000x128, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S102000, .f32⟩
  | .hbm, ⟨29, _⟩ => ⟨S1000000x1, .i32⟩
  | .hbm, ⟨30, _⟩ => ⟨S102000, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x128, .f32⟩
  | .hbm, ⟨40, _⟩ => ⟨S_, .f32⟩
  | .hbm, ⟨41, _⟩ => ⟨S102000x128, .f32⟩
  | .hbm, ⟨42, _⟩ => ⟨S1000000x1, .i32⟩
  | .hbm, ⟨43, _⟩ => ⟨S102000x128, .f32⟩
  | .hbm, ⟨44, _⟩ => ⟨S_, .f32⟩
  | .hbm, ⟨45, _⟩ => ⟨S102000, .f32⟩
  | .hbm, ⟨46, _⟩ => ⟨S102000, .f32⟩
  | .hbm, ⟨47, _⟩ => ⟨S102000x1, .f32⟩
  | .hbm, ⟨48, _⟩ => ⟨S102000x128, .f32⟩
  | .hbm, ⟨49, _⟩ => ⟨S102000x128, .f32⟩
  | .hbm, ⟨50, _⟩ => ⟨S102000x128, .f32⟩
  | .hbm, ⟨51, _⟩ => ⟨S102000x128, .f32⟩
  | .hbm, ⟨52, _⟩ => ⟨S102000x128, .f32⟩
  | .hbm, ⟨53, _⟩ => ⟨S1x128, .f32⟩
  | .hbm, ⟨54, _⟩ => ⟨S102000x128, .f32⟩
  | .hbm, ⟨55, _⟩ => ⟨S102000x128, .f32⟩
  | .hbm, ⟨56, _⟩ => ⟨S_, .f32⟩
  | .hbm, ⟨57, _⟩ => ⟨S_, .f32⟩
  | .hbm, ⟨58, _⟩ => ⟨S102000x128, .f32⟩
  | .hbm, ⟨59, _⟩ => ⟨S102000x128, .i1⟩
  | .hbm, ⟨60, _⟩ => ⟨S_, .f32⟩
  | .hbm, ⟨61, _⟩ => ⟨S102000x128, .f32⟩
  | .hbm, ⟨62, _⟩ => ⟨S102000x128, .f32⟩
  | .hbm, ⟨63, _⟩ => ⟨S102000x128, .f32⟩
  | .hbm, ⟨64, _⟩ => ⟨S_, .f32⟩
  | .hbm, ⟨65, _⟩ => ⟨S1000000, .f32⟩
  | .hbm, ⟨66, _⟩ => ⟨S_, .f32⟩
  | .hbm, ⟨67, _⟩ => ⟨S102000, .f32⟩
  | .hbm, ⟨68, _⟩ => ⟨S1000000x1, .i32⟩
  | .hbm, ⟨69, _⟩ => ⟨S102000, .f32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1000000x128, .f32⟩
  | .hbm, ⟨79, _⟩ => ⟨S_, .f32⟩
  | .hbm, ⟨80, _⟩ => ⟨S102000x128, .f32⟩
  | .hbm, ⟨81, _⟩ => ⟨S1000000x1, .i32⟩
  | .hbm, ⟨82, _⟩ => ⟨S102000x128, .f32⟩
  | .hbm, ⟨83, _⟩ => ⟨S_, .f32⟩
  | .hbm, ⟨84, _⟩ => ⟨S102000, .f32⟩
  | .hbm, ⟨85, _⟩ => ⟨S102000, .f32⟩
  | .hbm, ⟨86, _⟩ => ⟨S102000x1, .f32⟩
  | .hbm, ⟨87, _⟩ => ⟨S102000x128, .f32⟩
  | .hbm, ⟨88, _⟩ => ⟨S102000x128, .f32⟩
  | .hbm, ⟨89, _⟩ => ⟨S102000x128, .f32⟩
  | .hbm, ⟨90, _⟩ => ⟨S102000x128, .f32⟩
  | .hbm, ⟨91, _⟩ => ⟨S102000x128, .f32⟩
  | .hbm, ⟨92, _⟩ => ⟨S1x128, .f32⟩
  | .hbm, ⟨93, _⟩ => ⟨S102000x128, .f32⟩
  | .hbm, ⟨94, _⟩ => ⟨S102000x128, .f32⟩
  | _, _ => ⟨S102000x12, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_10 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  bcast_S_S102000x12 : S_.BroadcastsInDim S102000x12 (![] : Fin 0 → Fin S102000x12.rank)
  bcast_S102000x12_S102000x12x1_0_1 : S102000x12.BroadcastsInDim S102000x12x1 (![0, 1] : Fin 2 → Fin S102000x12x1.rank)
  reducesTo_S102000x12x128_S102000x128_d1 : S102000x12x128.ReducesTo [1] S102000x128
  h_S_ : 0 < S_.numel
  bcast_S102000_S102000x1_0 : S102000.BroadcastsInDim S102000x1 (![0] : Fin 1 → Fin S102000x1.rank)
  bcast_S102000x1_S102000x128_0_1 : S102000x1.BroadcastsInDim S102000x128 (![0, 1] : Fin 2 → Fin S102000x128.rank)
  bcast_S_S1000000 : S_.BroadcastsInDim S1000000 (![] : Fin 0 → Fin S1000000.rank)
  bcast_S_S102000 : S_.BroadcastsInDim S102000 (![] : Fin 0 → Fin S102000.rank)
  bcast_S1000000_S1000000x1_0 : S1000000.BroadcastsInDim S1000000x1 (![0] : Fin 1 → Fin S1000000x1.rank)
  bcast_S_S102000x128 : S_.BroadcastsInDim S102000x128 (![] : Fin 0 → Fin S102000x128.rank)
  bcast_S128_S1x128_1 : S128.BroadcastsInDim S1x128 (![1] : Fin 1 → Fin S1x128.rank)
  bcast_S1x128_S102000x128_0_1 : S1x128.BroadcastsInDim S102000x128 (![0, 1] : Fin 2 → Fin S102000x128.rank)
  gather_S30001x128_S102000x12x1_S102000x12x128_2_0_n_n_0_2_1128_wf : GatherDims.WF S30001x128 S102000x12x1 S102000x12x128 [2] [0] [] [0] [] 2 ![1, 128]
  scatter_S102000_S1000000x1_S1000000_n_0_0_1_wf : ScatterDims.WF S102000 S1000000x1 S1000000 [] [0] [0] 1
  gather_S102000x128_S1000000x1_S1000000x128_1_0_n_n_0_1_1128_wf : GatherDims.WF S102000x128 S1000000x1 S1000000x128 [1] [0] [] [0] [] 1 ![1, 128]
  scatter_S102000x128_S1000000x1_S1000000x128_1_0_0_1_wf : ScatterDims.WF S102000x128 S1000000x1 S1000000x128 [1] [0] [0] 1
  dot_S102000x128_S128x128_S102000x128_1_0_0_1_n_n_wf : DotDims.WF S102000x128 S128x128 S102000x128 [1] [0] [0] [1] [] []

variable [Facts₀]

def gather_S30001x128_S102000x12x1_S102000x12x128_2_0_n_n_0_2_1128 : GatherDims S30001x128 S102000x12x1 S102000x12x128 where
  offsetDims := [2]
  collapsedSliceDims := [0]
  operandBatchingDims := []
  startIndicesBatchingDims := []
  startIndexMap := [0]
  indexVectorDim := 2
  sliceSizes := ![1, 128]
  wf := gather_S30001x128_S102000x12x1_S102000x12x128_2_0_n_n_0_2_1128_wf
def scatter_S102000_S1000000x1_S1000000_n_0_0_1 : ScatterDims S102000 S1000000x1 S1000000 where
  updateWindowDims := []
  insertedWindowDims := [0]
  scatterDimsToOperandDims := [0]
  indexVectorDim := 1
  wf := scatter_S102000_S1000000x1_S1000000_n_0_0_1_wf
def gather_S102000x128_S1000000x1_S1000000x128_1_0_n_n_0_1_1128 : GatherDims S102000x128 S1000000x1 S1000000x128 where
  offsetDims := [1]
  collapsedSliceDims := [0]
  operandBatchingDims := []
  startIndicesBatchingDims := []
  startIndexMap := [0]
  indexVectorDim := 1
  sliceSizes := ![1, 128]
  wf := gather_S102000x128_S1000000x1_S1000000x128_1_0_n_n_0_1_1128_wf
def scatter_S102000x128_S1000000x1_S1000000x128_1_0_0_1 : ScatterDims S102000x128 S1000000x1 S1000000x128 where
  updateWindowDims := [1]
  insertedWindowDims := [0]
  scatterDimsToOperandDims := [0]
  indexVectorDim := 1
  wf := scatter_S102000x128_S1000000x1_S1000000x128_1_0_0_1_wf
def dot_S102000x128_S128x128_S102000x128_1_0_0_1_n_n : DotDims S102000x128 S128x128 S102000x128 where
  lhsContracting := [1]
  rhsContracting := [0]
  lhsNonContracting := [0]
  rhsNonContracting := [1]
  lhsBatch := []
  rhsBatch := []
  wf := dot_S102000x128_S128x128_S102000x128_1_0_0_1_n_n_wf

class Facts : Prop extends Facts₀ where

variable [Facts]
-- ==== Proof.RefTerm.lean ====
/-
  The reference's result as one composed term of its eleven arguments.

  A node's feature row is the mean of its words' embedding rows (the sum of the gathered rows over the word axis,
  divided by the node's word count). A graph layer sends a feature array `h` to
  `h · W_self + mean_neigh(h) · W_neigh + b`, where `mean_neigh(h)` at node `v` is the sum of `h` over the edges
  into `v` divided by `max(indegree(v), 1)`. The result is the second layer applied to the leaky rectifier
  (`x` where `x ≥ 0`, else the slope times `x`) of the first. Each piece below is the host operations' term exactly
  as the program spells it, so that the run's result buffer is `refOut` of the argument buffers by unfolding.
-/
import proofs.«176279_j24756191494706_1_alg».proof.ReferenceIdeal

noncomputable section

namespace Cert.ReferenceIdeal.Term

open Idealize.ShloMosaic Cert.ReferenceIdeal Cert.ReferenceIdeal.Facts₀

variable {F : FTy → Type} [FloatOps F] [Cert.ReferenceIdeal.Facts]

/-- A word-id table with negative ids wrapped by the vocabulary's extent, as a column of start indices. -/
def wordIdx (w : IVec S102000x12 32) : IVec S102000x12x1 32 :=
  broadcastInDim S102000x12x1 ![0, 1] bcast_S102000x12_S102000x12x1_0_1
    (select (cmpi .slt w (broadcastInDim S102000x12 ![] bcast_S_S102000x12 (constantI S_ 32 0#32)))
      (addi w (broadcastInDim S102000x12 ![] bcast_S_S102000x12 (constantI S_ 32 30001#32))) w)

/-- A node-id list with negative ids wrapped by the node count, as a column of start indices. -/
def nodeIdx (s : IVec S1000000 32) : IVec S1000000x1 32 :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 102000#32))) s)

/-- The gathered embedding rows of every node's words. -/
def wordRows (emb : FVec F S30001x128 .f32) (w : IVec S102000x12 32) : FVec F S102000x12x128 .f32 :=
  Host.gather gather_S30001x128_S102000x12x1_S102000x12x128_2_0_n_n_0_2_1128 emb (wordIdx w)

/-- The word counts as a column. -/
def lenCol (len : FVec F S102000 .f32) : FVec F S102000x1 .f32 :=
  broadcastInDim S102000x1 ![0] bcast_S102000_S102000x1_0 len

/-- Mean pooling from the gathered rows and the count column: the sum over the word axis divided by the count. -/
def poolOf (rows : FVec F S102000x12x128 .f32) (lc : FVec F S102000x1 .f32) : FVec F S102000x128 .f32 :=
  Host.divf (Host.reduceAdd rows (constant S_ .f32 0x00000000#32) reducesTo_S102000x12x128_S102000x128_d1 h_S_)
    (broadcastInDim S102000x128 ![0, 1] bcast_S102000x1_S102000x128_0_1 lc)

/-- The indegree of every node, floored at one. -/
def degMax (dst : IVec S1000000 32) : FVec F S102000 .f32 :=
  maximumf
    (Host.scatterAdd scatter_S102000_S1000000x1_S1000000_n_0_0_1
      (broadcastInDim S102000 ![] bcast_S_S102000 (constant S_ .f32 0x00000000#32))
      (broadcastInDim S1000000x1 ![0] bcast_S1000000_S1000000x1_0 dst)
      (broadcastInDim S1000000 ![] bcast_S_S1000000 (constant S_ .f32 0x3F800000#32)))
    (broadcastInDim S102000 ![] bcast_S_S102000 (constant S_ .f32 0x3F800000#32))

/-- The sum of `h`'s rows over the edges into each node. -/
def nsum (h : FVec F S102000x128 .f32) (src dst : IVec S1000000 32) : FVec F S102000x128 .f32 :=
  Host.scatterAdd scatter_S102000x128_S1000000x1_S1000000x128_1_0_0_1
    (broadcastInDim S102000x128 ![] bcast_S_S102000x128 (constant S_ .f32 0x00000000#32))
    (broadcastInDim S1000000x1 ![0] bcast_S1000000_S1000000x1_0 dst)
    (Host.gather gather_S102000x128_S1000000x1_S1000000x128_1_0_n_n_0_1_1128 h (nodeIdx src))

/-- A per-node value spread over the feature axis. -/
def perNode (d : FVec F S102000 .f32) : FVec F S102000x128 .f32 :=
  broadcastInDim S102000x128 ![0, 1] bcast_S102000x1_S102000x128_0_1
    (broadcastInDim S102000x1 ![0] bcast_S102000_S102000x1_0 d)

/-- The neighbour mean as the reference takes it: the edge sum divided by the floored indegree. -/
def nmeanR (h : FVec F S102000x128 .f32) (src dst : IVec S1000000 32) : FVec F S102000x128 .f32 :=
  Host.divf (nsum h src dst) (perNode (degMax dst))

/-- A bias row as a `[1, 128]` array. -/
def biasRow (b : FVec F S128 .f32) : FVec F S1x128 .f32 :=
  broadcastInDim S1x128 ![1] bcast_S128_S1x128_1 b

/-- The dense part of a layer: `h · W_self + h_n · W_neigh + b`. -/
def dense (h hn : FVec F S102000x128 .f32) (ws wn : FVec F S128x128 .f32) (b : FVec F S1x128 .f32) :
    FVec F S102000x128 .f32 :=
  addf
    (addf (Host.dotGeneral dot_S102000x128_S128x128_S102000x128_1_0_0_1_n_n none h ws)
      (Host.dotGeneral dot_S102000x128_S128x128_S102000x128_1_0_0_1_n_n none hn wn))
    (broadcastInDim S102000x128 ![0, 1] bcast_S1x128_S102000x128_0_1 b)

/-- The leaky rectifier as the reference's outlined function spells it. -/
def leaky (x : FVec F S102000x128 .f32) : FVec F S102000x128 .f32 :=
  select
    (cmpf .oge x (broadcastInDim S102000x128 ![] bcast_S_S102000x128 (constant S_ .f32 0x00000000#32)))
    x
    (mulf (broadcastInDim S102000x128 ![] bcast_S_S102000x128 (id (constant S_ .f32 0x3C23D70A#32))) x)

/-- The reference's result of its arguments. -/
def refOut (wids : IVec S102000x12 32) (len : FVec F S102000 .f32) (src dst : IVec S1000000 32)
    (emb : FVec F S30001x128 .f32) (w1s w1n : FVec F S128x128 .f32) (b1 : FVec F S128 .f32)
    (w2s w2n : FVec F S128x128 .f32) (b2 : FVec F S128 .f32) : FVec F S102000x128 .f32 :=
  let h0 := poolOf (wordRows emb wids) (lenCol len)
  let h1 := leaky (dense h0 (nmeanR h0 src dst) w1s w1n (biasRow b1))
  dense h1 (nmeanR h1 src dst) w2s w2n (biasRow b2)

end Cert.ReferenceIdeal.Term

end
-- ==== Proof.LibColumns.lean ====
/-
  Column forms of the layout operations, and a row sum, read at an index.

  A sum along the second axis of an `[a, b]` array that keeps the axis gives an `[a, 1]` column; taking it off the
  array again broadcasts the column back to `[a, b]`. Here: the cast `[a] → [a, 1]` reads entry `p` at `(p, u)`
  whatever the unit coordinate `u`; the broadcast `[a, 1] → [a, b]` reads the column's entry `(p, 0)` at every
  `(p, c)`; and a lane sum of an `[n, b]` array over its second axis is, at row `r`, the sum over `k` of the
  entries `(r, k)`. All for arbitrary extents.
-/
import Idealize.ShloMosaic.Lib.ValueIdx
import Idealize.ShloMosaic.Lib.Pipeline.Value
import Idealize.ShloMosaic.PureOps.Ideal.Laws

noncomputable section

open scoped BigOperators

namespace Cert.Columns

open Idealize.ShloMosaic Idealize.ShloMosaic.ValueIdx

variable {α : Type}

/-- An `[a]` array cast to the column `[a, 1]` reads, at `(p, u)`, the operand at `p`: the row-major position of
    `(p, u)` in `[a, 1]` is `p · 1 + u` with `u = 0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum over the second axis of an `[n, b]` array of extended reals, from the zero word, is at row `r` the sum
    of that row's entries. -/
theorem rowSum_apply {n b : ℕ} {φ : FTy} (src : FVec Ideal ⟨2, ![n, b]⟩ φ) (acc : BitVec φ.bits)
    (h : (⟨2, ![n, b]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  apply Fin.ext
  match ax with
  | ⟨0, _⟩ => rfl
  | ⟨1, _⟩ => rfl

end Cert.Columns

end
-- ==== Proof.Region0.lean ====
/-
  The mean-pooling region, whole: after its 85 grid points the output array holds, at node `r` and feature `j`, the sum
  over the twelve words `l` of the gathered row entry `(r, l, j)` divided by the node's word count — the reference's
  own pooling term of the two arrays the region reads. Point `t` handles the 1200 nodes `1200 t … 1200 t + 1199`.

  The steps: the body's value at node `p`, feature `q` of a block (the twelve-word sum over the count); the reference's
  pooling term at node `P`, feature `q` of the whole arrays (the same expression, from a zero initial value); point `t`'s
  blocks are the rows `1200 t + p` of the arrays, so what it writes is block `t` of the pooling term; node `r` lies in
  the block of point `r / 1200`, so the blocks cover the array.
-/
import proofs.«176279_j24756191494706_1_alg».proof.Proof.Gen.KernelIdeal.Frame
import proofs.«176279_j24756191494706_1_alg».proof.Proof.Gen.ReferenceIdeal
import proofs.«176279_j24756191494706_1_alg».proof.Proof.RefTerm
import proofs.«176279_j24756191494706_1_alg».proof.Proof.LibColumns
import Idealize.ShloMosaic.Lib.ValueIdx
import Idealize.ShloMosaic.Lib.IdealHost
import Idealize.ShloMosaic.Lib.Pipeline.Value
import Idealize.ShloMosaic.Lib.KernelVsHost
import Idealize.ShloMosaic.Lib.StackMember
import Idealize.ShloMosaic.PureOps.Ideal.Laws

set_option maxRecDepth 16384

noncomputable section

open scoped BigOperators

namespace Cert.KernelIdeal.Pool

open Cert.KernelIdeal Cert.KernelIdeal.Gen
open Idealize.ShloMosaic Idealize.ShloMosaic.TcCoe Idealize.ShloMosaic.ValueIdx Idealize.SL.Sem
open Cert.ReferenceIdeal (Term.poolOf Term.dense Term.leaky)

/-! ## The body's value at one node and feature of a block -/

/-- The sum over the word axis of a `[1200, 12, 128]` block, at node `p` and feature `q`: the twelve entries
    `(p, l, q)` added. -/
theorem wordSum_apply (x : FVec Ideal S1200x12x128 .f32) (h : S1200x12x128.Reduces [1] S1200x128)
    (hφ : FKind.Formats .f32) (hacc : (0x00000000#32 : BitVec 32) = 0x00000000#32) (p : Fin 1200) (q : Fin 128) :
    multiReduction (F := Ideal) .add [1] S1200x128 x 0x00000000#32 h hφ hacc (ix2 p q) = ∑ l : Fin 12, x (ix3 p l q) := by
  refine (Ideal.multiReduction_add_single x 0x00000000#32 h hφ hacc (ix2 p q)).trans ?_
  refine Finset.sum_congr rfl fun l _ => congrArg x ?_
  funext ax
  apply Fin.ext
  match ax with
  | ⟨0, _⟩ => rfl
  | ⟨1, _⟩ => rfl
  | ⟨2, _⟩ => rfl

/-- What the body stores, at node `p` and feature `q` of its block: the node's twelve-word sum of the row block
    divided by the node's entry of the count column. -/
theorem pay_apply (x0 : Vec Ideal S1200x12x128 .f32) (x1 : Vec Ideal S1200x1 .f32) (p : Fin 1200) (q : Fin 128) :
    k0_pay1 (F := Ideal) x0 x1 (ix2 p q) = Ideal.div (∑ l : Fin 12, x0 (ix3 p l q)) (x1 (ix2 p (0 : Fin 1))) := by
  unfold k0_pay1
  dsimp only
  rw [divf_apply, shapeCast_self, shapeCast_self]
  rw [wordSum_apply, Cert.Columns.broadcastTo_a1_ab_apply]

/-! ## The reference's pooling term at one node and feature -/

/-- The pooling term at node `P` and feature `q`: the node's twelve-word sum of the rows (from the zero initial
    value, which adds nothing) divided by the node's entry of the count column. -/
theorem poolOf_apply (rows : FVec Ideal Cert.ReferenceIdeal.S102000x12x128 .f32)
    (lc : FVec Ideal Cert.ReferenceIdeal.S102000x1 .f32) (P : Fin 102000) (q : Fin 128) :
    Cert.ReferenceIdeal.Term.poolOf (F := Ideal) rows lc (ix2 P q)
      = Ideal.div (∑ l : Fin 12, rows (ix3 P l q)) (lc (ix2 P (0 : Fin 1))) := by
  unfold Cert.ReferenceIdeal.Term.poolOf
  rw [hostDivf_apply, hostReduceAdd_apply,
    Ideal.hostReduceAdd_single _ (by decide : Cert.ReferenceIdeal.S102000x12x128.Reduces [1] Cert.ReferenceIdeal.S102000x128),
    constant_apply, Ideal.ofBits_zero_f32, zero_add]
  congr 1
  · refine Finset.sum_congr rfl fun l _ => congrArg rows ?_
    funext ax
    apply Fin.ext
    match ax with
    | ⟨0, _⟩ => rfl
    | ⟨1, _⟩ => rfl
    | ⟨2, _⟩ => rfl
  · refine broadcastInDim_apply _ _ lc (ix2 P q) (ix2 P (0 : Fin 1)) fun ax => ?_
    match ax with
    | ⟨0, _⟩ => rfl
    | ⟨1, _⟩ => rfl

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: point `t`'s block index is `t` on the node axis and `0` on every other axis, for
    each of the three windows. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The body's value at point `t`, at an index `y` of its block, is the pooling term of the whole arrays at the
    place of `y` in the output array: with `y = (p, q)` that place is `(1200 t + p, q)`, the row block's entry
    `(p, l, q)` is the rows' entry `(1200 t + p, l, q)`, and the count block's entry `(p, 0)` is the count column's
    entry `(1200 t + p, 0)`. -/
theorem point_value (c : Dev nD) (t : Fin cfg0.N) (y : S1200x128.Idx) :
    k0_pay1 (F := Ideal) (iblk0 V c 0 t) (iblk0 V c 1 t) y
      = Cert.ReferenceIdeal.Term.poolOf (F := Ideal) (V c main_v6) (V c main_v7) (((cfg0.win 2).blk t).view.emb y) := by
  obtain ⟨p, q, rfl⟩ : ∃ (p : Fin 1200) (q : Fin 128), y = ix2 p q := ⟨y 0, y 1, eq_ix2 y⟩
  obtain ⟨e00, e01, e02, e10, e11, e20, e21⟩ := idx_facts t
  have ht : t.val < 85 := t.isLt
  have hp : p.val < 1200 := p.isLt
  have hP : 1200 * t.val + p.val < 102000 := by omega
  have hidx : ((cfg0.win 2).blk t).view.emb (ix2 p q) = ix2 (⟨1200 * t.val + p.val, hP⟩ : Fin 102000) q := by
    funext a; apply Fin.ext
    match a with
    | ⟨0, _⟩ => show win0_2.index t (0 : Fin 2) * 1200 + 1 * p.val = 1200 * t.val + p.val; rw [e20]; omega
    | ⟨1, _⟩ => show win0_2.index t (1 : Fin 2) * 128 + 1 * q.val = q.val; rw [e21]; omega
  rw [hidx, pay_apply, poolOf_apply]
  congr 1
  · refine Finset.sum_congr rfl fun l _ => ?_
    show V c main_v6 (((cfg0.win 0).blk t).view.emb (ix3 p l q))
      = V c main_v6 (ix3 (⟨1200 * t.val + p.val, hP⟩ : Fin 102000) l q)
    refine congrArg (V c main_v6) ?_
    funext a; apply Fin.ext
    match a with
    | ⟨0, _⟩ => show win0_0.index t (0 : Fin 3) * 1200 + 1 * p.val = 1200 * t.val + p.val; rw [e00]; omega
    | ⟨1, _⟩ => show win0_0.index t (1 : Fin 3) * 12 + 1 * l.val = l.val; rw [e01]; omega
    | ⟨2, _⟩ => show win0_0.index t (2 : Fin 3) * 128 + 1 * q.val = q.val; rw [e02]; omega
  · show V c main_v7 (((cfg0.win 1).blk t).view.emb (ix2 p (0 : Fin 1)))
      = V c main_v7 (ix2 (⟨1200 * t.val + p.val, hP⟩ : Fin 102000) (0 : Fin 1))
    refine congrArg (V c main_v7) ?_
    funext a; apply Fin.ext
    match a with
    | ⟨0, _⟩ => show win0_1.index t (0 : Fin 2) * 1200 + 1 * p.val = 1200 * t.val + p.val; rw [e10]; omega
    | ⟨1, _⟩ => show win0_1.index t (1 : Fin 2) * 1 + 1 * (0 : Fin 1).val = (0 : Fin 1).val; rw [e11]; rfl

/-- What point `t` writes back is block `t` of the pooling term of the two arrays the region reads. -/
theorem flushed_eq (c : Dev nD) (t : Fin cfg0.N) :
    (dat0 (F := Ideal) V c).flushed 2 t
      = ((cfg0.win 2).blk t).view.read (Elt Ideal)
          (Cert.ReferenceIdeal.Term.poolOf (F := Ideal) (V c main_v6) (V c main_v7)) := by
  show (cfg0.win 2).cut (grid0.coords t) ((dat0 V c).after 2 t) = _
  rw [after0_2]
  unfold out0_2
  rw [View.canon_unit_zero hz2]
  simp only [View.ld_unit_zero (S := S1200x12x128) hz3, View.ld_unit_zero (S := S1200x1) hz2]
  funext j
  exact point_value V c t j

/-- An index of the output array is in point `t`'s block iff each coordinate is in the block's range on its axis. -/
theorem mem_blk (t : Fin cfg0.N) (i : S102000x128.Idx) :
    i ∈ ((cfg0.win 2).blk t).view.set ↔ ∀ a : Fin 2, win0_2.index t a * S1200x128.size a ≤ (i a).val
      ∧ (i a).val < win0_2.index t a * S1200x128.size a + S1200x128.size a := by
  show i ∈ ((View.whole main_v8).slice (win0_2.rect t)).set ↔ _
  rw [View.set_slice_whole, Rect.mem_set_unit]
  exact Iff.rfl

/-- Node `r` is handled by point `r / 1200`: every index of the output array is in some point's block. -/
theorem cover (i : S102000x128.Idx) :
    ∃ t : Fin cfg0.N, (cfg0.win 2).flush t = true ∧ i ∈ ((cfg0.win 2).blk t).view.set := by
  have hi0 : (i 0).val < 102000 := (i 0).isLt
  have hi1 : (i 1).val < 128 := (i 1).isLt
  obtain ⟨t, ht⟩ : ∃ t : Fin cfg0.N, t.val = (i 0).val / 1200 :=
    ⟨⟨(i 0).val / 1200, by show (i 0).val / 1200 < 85; omega⟩, rfl⟩
  obtain ⟨-, -, -, -, -, e20, e21⟩ := idx_facts t
  refine ⟨t, flush0_2 t, ?_⟩
  rw [mem_blk]
  intro a
  match a with
  | ⟨0, _⟩ =>
    show win0_2.index t (0 : Fin 2) * 1200 ≤ (i 0).val ∧ (i 0).val < win0_2.index t (0 : Fin 2) * 1200 + 1200
    rw [e20, ht]; omega
  | ⟨1, _⟩ =>
    show win0_2.index t (1 : Fin 2) * 128 ≤ (i 1).val ∧ (i 1).val < win0_2.index t (1 : Fin 2) * 128 + 128
    rw [e21]; omega

/-- The output array after the region is the pooling term of the entry contents of the two input arrays. -/
theorem final (c : Dev nD) :
    (dat0 (F := Ideal) V c).arrAt 2 cfg0.N = Cert.ReferenceIdeal.Term.poolOf (F := Ideal) (V c main_v6) (V c main_v7) := by
  exact (dat0 (F := Ideal) V c).arrAt_eq_of_cover 2 _ (fun t _ => flushed_eq V c t) cover

end Cert.KernelIdeal.Pool

end
-- ==== Proof.DenseAt.lean ====
/-
  One entry of a dense graph layer, read off both spellings.

  Entry `(p, q)` of `h · W_s + h_n · W_n + b` is `Σ_c h(p, c) · W_s(c, q) + Σ_c h_n(p, c) · W_n(c, q) + b(0, q)`. The
  host's dot over the whole arrays and the kernel's product of operands narrowed to bf16 and accumulated into zero both
  read as that plain sum at the ideal values (narrowing is the identity there, and `0 + x = x`); the leaky rectifier is
  one scalar expression, `y` where `y ≥ 0` and the slope times `y` elsewhere, applied entry by entry.
-/
import proofs.«176279_j24756191494706_1_alg».proof.Proof.Gen.ReferenceIdeal
import proofs.«176279_j24756191494706_1_alg».proof.Proof.RefTerm
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

noncomputable section

namespace Cert.DenseAt

open Idealize.ShloMosaic Idealize.ShloMosaic.ValueIdx
open Idealize.ShloMosaic.StackMember (dotGeneral_plain_apply)
open scoped BigOperators

/-- A plain `[m, k] × [k, n]` host dot at `(a, b)` is `Σ_c A(a, c) · B(c, b)`, whatever proof of well-formedness its
    record carries. -/
theorem hostDot_apply {m k n : ℕ} (w : DotDims.WF ⟨2, ![m, k]⟩ ⟨2, ![k, n]⟩ ⟨2, ![m, n]⟩ [1] [0] [0] [1] [] [])
    (prec : Option ContractPrecision) {φ₁ φ₂ : FTy} (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  dotGeneral_plain_apply prec A B a b

/-- The kernel's product of two operands narrowed to bf16, accumulated into zero, at `(a, b)`: the same sum. -/
theorem kernelDot_apply {m k n : ℕ} (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (hb : FTy.bf16.bits < FTy.f32.bits) (a : Fin m) (b : Fin n) :
    matmul (⟨[1], [0], [0], [1], [], [], w⟩ : DotDims _ _ _) prec (truncf .bf16 A hb) (truncf .bf16 B hb)
        (constant ⟨2, ![m, n]⟩ .f32 0x00000000#32) (ix2 a b)
      = ∑ c : Fin k, A (ix2 a c) * B (ix2 c b) := by
  rw [matmul_zero_eq_dotGeneral, hostDot_apply]
  rfl

/-- The leaky rectifier on one value: `y` where `y ≥ 0`, else the slope times `y`. -/
def leakyS (y : Ideal .f32) : Ideal .f32 :=
  Scalar.select (FloatOps.cmpf .oge y (FloatOps.ofBits .f32 0x00000000#32)) y
    (FloatOps.mulf (FloatOps.ofBits .f32 0x3C23D70A#32) y)

/-- Entry `(p, q)` of `h · W_s + h_n · W_n + b` over `m` rows. -/
def denseS {m : ℕ} (h hn : (⟨2, ![m, 128]⟩ : Shape).Idx → Ideal .f32) (ws wn : (⟨2, ![128, 128]⟩ : Shape).Idx → Ideal .f32)
    (b : (⟨2, ![1, 128]⟩ : Shape).Idx → Ideal .f32) (p : Fin m) (q : Fin 128) : Ideal .f32 :=
  FloatOps.addf
    (FloatOps.addf (∑ c : Fin 128, h (ix2 p c) * ws (ix2 c q)) (∑ c : Fin 128, hn (ix2 p c) * wn (ix2 c q)))
    (b (ix2 (0 : Fin 1) q))

/-- The reference's dense term at `(P, q)`. -/
theorem dense_apply (h hn : FVec Ideal Cert.ReferenceIdeal.S102000x128 .f32) (ws wn : FVec Ideal Cert.ReferenceIdeal.S128x128 .f32)
    (b : FVec Ideal Cert.ReferenceIdeal.S1x128 .f32) (P : Fin 102000) (q : Fin 128) :
    Cert.ReferenceIdeal.Term.dense h hn ws wn b (ix2 P q) = denseS h hn ws wn b P q :=
  congrArg₂ FloatOps.addf
    (congrArg₂ FloatOps.addf (hostDot_apply _ none h ws P q) (hostDot_apply _ none hn wn P q))
    (broadcastInDim_oneRow_apply _ b P q)

/-- The reference's rectifier at an index. -/
theorem leaky_apply (x : FVec Ideal Cert.ReferenceIdeal.S102000x128 .f32) (i : Cert.ReferenceIdeal.S102000x128.Idx) :
    Cert.ReferenceIdeal.Term.leaky x i = leakyS (x i) := rfl

/-- A `[1, 128]` row laid down the `m` rows of a block, at `(p, q)`: the row's entry `q`. -/
theorem rowDown_apply {m : ℕ} (x : (⟨2, ![1, 128]⟩ : Shape).Idx → Ideal .f32)
    (h1 : (⟨2, ![1, 128]⟩ : Shape).ShapeCasts ⟨2, ![1, 128]⟩) (hb : (⟨2, ![1, 128]⟩ : Shape).Broadcasts ⟨2, ![m, 128]⟩)
    (p : Fin m) (q : Fin 128) :
    broadcastTo ⟨2, ![m, 128]⟩ (shapeCast ⟨2, ![1, 128]⟩ x h1) hb (ix2 p q) = x (ix2 (0 : Fin 1) q) := by
  rw [shapeCast_self]
  refine broadcastTo_apply x _ (ix2 p q) (ix2 (0 : Fin 1) q) fun a => ?_
  match a with
  | ⟨0, _⟩ => rfl
  | ⟨1, _⟩ => rfl

end Cert.DenseAt

end
-- ==== Proof.Region1.lean ====
/-
  The first dense region, whole: after its 34 grid points the output array holds the leaky rectifier of
  `h · W_self + h_n · W_neigh + b` — the reference's own terms of the five arrays the region reads. Point `t` handles
  the 3000 nodes `3000 t … 3000 t + 2999`; the two weight matrices and the bias row are read whole at every point.
-/
import proofs.«176279_j24756191494706_1_alg».proof.Proof.Gen.KernelIdeal.Frame
import proofs.«176279_j24756191494706_1_alg».proof.Proof.DenseAt

set_option maxRecDepth 16384

noncomputable section

namespace Cert.KernelIdeal.Layer1

open Cert.KernelIdeal Cert.KernelIdeal.Gen Cert.DenseAt
open Idealize.ShloMosaic Idealize.ShloMosaic.TcCoe Idealize.ShloMosaic.ValueIdx Idealize.SL.Sem
open scoped BigOperators

/-- The body's payload at `(p, q)` of the block: the rectifier of the dense entry of the five loaded blocks. -/
theorem pay_apply (x0 x1 : Vec Ideal S3000x128 .f32) (x2 x3 : Vec Ideal S128x128 .f32) (x4 : Vec Ideal S1x128 .f32)
    (p : Fin 3000) (q : Fin 128) :
    k1_pay1 x0 x1 x2 x3 x4 (ix2 p q) = leakyS (denseS x0 x1 x2 x3 x4 p q) := by
  have e0 := (kernelDot_apply Facts₀.dot_S3000x128_S128x128_S3000x128_1_0_0_1_n_n_wf none
      (shapeCast S3000x128 x0 shapeCasts_S3000x128_S3000x128) x2 bitsLt_bf16_f32 p q).trans
    (Finset.sum_congr rfl fun c _ => by rw [shapeCast_self])
  have e1 := (kernelDot_apply Facts₀.dot_S3000x128_S128x128_S3000x128_1_0_0_1_n_n_wf none
      (shapeCast S3000x128 x1 shapeCasts_S3000x128_S3000x128) x3 bitsLt_bf16_f32 p q).trans
    (Finset.sum_congr rfl fun c _ => by rw [shapeCast_self])
  exact congrArg leakyS (congrArg₂ FloatOps.addf (congrArg₂ FloatOps.addf e0 e1) (rowDown_apply x4 _ _ p q))

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The array the region leaves, as the reference spells it. -/
abbrev G (c : Dev nD) : FVec Ideal Cert.ReferenceIdeal.S102000x128 .f32 :=
  Cert.ReferenceIdeal.Term.leaky (F := Ideal)
    (Cert.ReferenceIdeal.Term.dense (V c main_v8) (V c main_v29) (V c main_arg5) (V c main_arg6) (V c main_v30))

/-- The index maps over the grid: point `t` takes row block `t` of the two feature arrays and of the output, and the
    whole of the two weight matrices and of the bias row. -/
theorem idx_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point `t` writes back is block `t` of the reference's term of the arrays as the region finds them. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S3000x128) hz, View.ld_unit_zero (S := S128x128) hz, View.ld_unit_zero (S := S1x128) hz]
  funext y
  obtain ⟨p, q, rfl⟩ : ∃ (p : Fin 3000) (q : Fin 128), y = ix2 p q := ⟨y 0, y 1, eq_ix2 y⟩
  show k1_pay1 (iblk1 V c 0 t) (iblk1 V c 1 t) (iblk1 V c 2 t) (iblk1 V c 3 t) (iblk1 V c 4 t) (ix2 p q)
    = G V c (((cfg1.win 5).blk t).view.emb (ix2 p q))
  obtain ⟨P, Q, hPQ⟩ : ∃ (P : Fin 102000) (Q : Fin 128), ((cfg1.win 5).blk t).view.emb (ix2 p q) = ix2 P Q :=
    ⟨_, _, eq_ix2 _⟩
  have hP : win1_5.index t (0 : Fin 2) * 3000 + 1 * p.val = P.val := congrArg (fun i => (i 0).val) hPQ
  have hQ : win1_5.index t (1 : Fin 2) * 128 + 1 * q.val = Q.val := congrArg (fun i => (i 1).val) hPQ
  obtain ⟨f50, f51, f00, f01, f10, f11, f20, f21, f30, f31, f40, f41⟩ := idx_facts t
  have hQq : Q = q := Fin.ext (by omega)
  subst hQq
  rw [hPQ]
  refine (pay_apply (iblk1 V c 0 t) (iblk1 V c 1 t) (iblk1 V c 2 t) (iblk1 V c 3 t) (iblk1 V c 4 t) p Q).trans ?_
  refine Eq.trans ?_ ((leaky_apply _ _).trans (congrArg leakyS (dense_apply _ _ _ _ _ P Q))).symm
  refine congrArg leakyS ?_
  unfold denseS
  refine congrArg₂ FloatOps.addf (congrArg₂ FloatOps.addf
    (Finset.sum_congr rfl fun k _ => congrArg₂ (· * ·) ?_ ?_) (Finset.sum_congr rfl fun k _ => congrArg₂ (· * ·) ?_ ?_)) ?_
  · show V c main_v8 (((cfg1.win 0).blk t).view.emb (ix2 p k)) = V c main_v8 (ix2 P k)
    refine congrArg _ (funext fun a => Fin.ext ?_)
    match a with
    | ⟨0, _⟩ => show win1_0.index t (0 : Fin 2) * 3000 + 1 * p.val = P.val; omega
    | ⟨1, _⟩ => show win1_0.index t (1 : Fin 2) * 128 + 1 * k.val = k.val; omega
  · show V c main_arg5 (((cfg1.win 2).blk t).view.emb (ix2 k Q)) = V c main_arg5 (ix2 k Q)
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * Q.val = Q.val; omega
  · show V c main_v29 (((cfg1.win 1).blk t).view.emb (ix2 p k)) = V c main_v29 (ix2 P k)
    refine congrArg _ (funext fun a => Fin.ext ?_)
    match a with
    | ⟨0, _⟩ => show win1_1.index t (0 : Fin 2) * 3000 + 1 * p.val = P.val; omega
    | ⟨1, _⟩ => show win1_1.index t (1 : Fin 2) * 128 + 1 * k.val = k.val; omega
  · show V c main_arg6 (((cfg1.win 3).blk t).view.emb (ix2 k Q)) = V c main_arg6 (ix2 k Q)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * Q.val = Q.val; omega
  · show V c main_v30 (((cfg1.win 4).blk t).view.emb (ix2 (0 : Fin 1) Q)) = V c main_v30 (ix2 (0 : Fin 1) Q)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * Q.val = Q.val; omega

/-- An index of the array is in point `t`'s block iff each coordinate is in the block's range on its axis. -/
theorem mem_blk (t : Fin cfg1.N) (i : S102000x128.Idx) :
    i ∈ ((cfg1.win 5).blk t).view.set ↔ ∀ a : Fin 2, win1_5.index t a * S3000x128.size a ≤ (i a).val
      ∧ (i a).val < win1_5.index t a * S3000x128.size a + S3000x128.size a := by
  show i ∈ ((View.whole main_v31).slice (win1_5.rect t)).set ↔ _
  rw [View.set_slice_whole, Rect.mem_set_unit]
  exact Iff.rfl

/-- Every node's row lies in the block of the point `r / 3000`. -/
theorem cover (i : S102000x128.Idx) :
    ∃ t : Fin cfg1.N, (cfg1.win 5).flush t = true ∧ i ∈ ((cfg1.win 5).blk t).view.set := by
  have hi0 : (i 0).val < 102000 := (i 0).isLt
  have hi1 : (i 1).val < 128 := (i 1).isLt
  have ht : (i 0).val / 3000 < cfg1.N := by
    rw [show cfg1.N = 34 from N_1]; omega
  refine ⟨⟨(i 0).val / 3000, ht⟩, flush1_5 _, ?_⟩
  rw [mem_blk]
  obtain ⟨f50, f51, -⟩ := idx_facts ⟨(i 0).val / 3000, ht⟩
  have f50' : win1_5.index ⟨(i 0).val / 3000, ht⟩ (0 : Fin 2) = (i 0).val / 3000 := f50
  intro a
  match a with
  | ⟨0, _⟩ =>
    show win1_5.index _ (0 : Fin 2) * 3000 ≤ (i 0).val ∧ (i 0).val < win1_5.index _ (0 : Fin 2) * 3000 + 3000
    omega
  | ⟨1, _⟩ =>
    show win1_5.index _ (1 : Fin 2) * 128 ≤ (i 1).val ∧ (i 1).val < win1_5.index _ (1 : Fin 2) * 128 + 128
    omega

/-- The output array after the region is the rectified dense term of the entry contents of the five input arrays. -/
theorem final (c : Dev nD) :
    (dat1 (F := Ideal) V c).arrAt 5 cfg1.N
      = Cert.ReferenceIdeal.Term.leaky (F := Ideal)
          (Cert.ReferenceIdeal.Term.dense (V c main_v8) (V c main_v29) (V c main_arg5) (V c main_arg6) (V c main_v30)) :=
  (dat1 (F := Ideal) V c).arrAt_eq_of_cover 5 (G V c) (fun t _ => flushed_eq V c t) (cover)

end Cert.KernelIdeal.Layer1

end
-- ==== Proof.Region2.lean ====
/-
  The second dense region, whole: after its 34 grid points the output array holds `h · W_self + h_n · W_neigh + b` —
  the reference's own term of the five arrays the region reads. Point `t` handles the 3000 nodes
  `3000 t … 3000 t + 2999`; the two weight matrices and the bias row are read whole at every point.
-/
import proofs.«176279_j24756191494706_1_alg».proof.Proof.Gen.KernelIdeal.Frame
import proofs.«176279_j24756191494706_1_alg».proof.Proof.DenseAt

set_option maxRecDepth 16384

noncomputable section

namespace Cert.KernelIdeal.Layer2

open Cert.KernelIdeal Cert.KernelIdeal.Gen Cert.DenseAt
open Idealize.ShloMosaic Idealize.ShloMosaic.TcCoe Idealize.ShloMosaic.ValueIdx Idealize.SL.Sem
open scoped BigOperators

/-- The body's payload at `(p, q)` of the block: the dense entry of the five loaded blocks. -/
theorem pay_apply (x0 x1 : Vec Ideal S3000x128 .f32) (x2 x3 : Vec Ideal S128x128 .f32) (x4 : Vec Ideal S1x128 .f32)
    (p : Fin 3000) (q : Fin 128) :
    k2_pay1 x0 x1 x2 x3 x4 (ix2 p q) = denseS x0 x1 x2 x3 x4 p q := by
  have e0 := (kernelDot_apply Facts₀.dot_S3000x128_S128x128_S3000x128_1_0_0_1_n_n_wf none
      (shapeCast S3000x128 x0 shapeCasts_S3000x128_S3000x128) x2 bitsLt_bf16_f32 p q).trans
    (Finset.sum_congr rfl fun c _ => by rw [shapeCast_self])
  have e1 := (kernelDot_apply Facts₀.dot_S3000x128_S128x128_S3000x128_1_0_0_1_n_n_wf none
      (shapeCast S3000x128 x1 shapeCasts_S3000x128_S3000x128) x3 bitsLt_bf16_f32 p q).trans
    (Finset.sum_congr rfl fun c _ => by rw [shapeCast_self])
  exact congrArg₂ FloatOps.addf (congrArg₂ FloatOps.addf e0 e1) (rowDown_apply x4 _ _ p q)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The array the region leaves, as the reference spells it. -/
abbrev G (c : Dev nD) : FVec Ideal Cert.ReferenceIdeal.S102000x128 .f32 :=
  Cert.ReferenceIdeal.Term.dense (F := Ideal) (V c main_v31) (V c main_v43) (V c main_arg8) (V c main_arg9) (V c main_v44)

/-- The index maps over the grid: point `t` takes row block `t` of the two feature arrays and of the output, and the
    whole of the two weight matrices and of the bias row. -/
theorem idx_facts : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- What point `t` writes back is block `t` of the reference's term of the arrays as the region finds them. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S3000x128) hz, View.ld_unit_zero (S := S128x128) hz, View.ld_unit_zero (S := S1x128) hz]
  funext y
  obtain ⟨p, q, rfl⟩ : ∃ (p : Fin 3000) (q : Fin 128), y = ix2 p q := ⟨y 0, y 1, eq_ix2 y⟩
  show k2_pay1 (iblk2 V c 0 t) (iblk2 V c 1 t) (iblk2 V c 2 t) (iblk2 V c 3 t) (iblk2 V c 4 t) (ix2 p q)
    = G V c (((cfg2.win 5).blk t).view.emb (ix2 p q))
  obtain ⟨P, Q, hPQ⟩ : ∃ (P : Fin 102000) (Q : Fin 128), ((cfg2.win 5).blk t).view.emb (ix2 p q) = ix2 P Q :=
    ⟨_, _, eq_ix2 _⟩
  have hP : win2_5.index t (0 : Fin 2) * 3000 + 1 * p.val = P.val := congrArg (fun i => (i 0).val) hPQ
  have hQ : win2_5.index t (1 : Fin 2) * 128 + 1 * q.val = Q.val := congrArg (fun i => (i 1).val) hPQ
  obtain ⟨f50, f51, f00, f01, f10, f11, f20, f21, f30, f31, f40, f41⟩ := idx_facts t
  have hQq : Q = q := Fin.ext (by omega)
  subst hQq
  rw [hPQ]
  refine (pay_apply (iblk2 V c 0 t) (iblk2 V c 1 t) (iblk2 V c 2 t) (iblk2 V c 3 t) (iblk2 V c 4 t) p Q).trans ?_
  refine Eq.trans ?_ (dense_apply _ _ _ _ _ P Q).symm
  unfold denseS
  refine congrArg₂ FloatOps.addf (congrArg₂ FloatOps.addf
    (Finset.sum_congr rfl fun k _ => congrArg₂ (· * ·) ?_ ?_) (Finset.sum_congr rfl fun k _ => congrArg₂ (· * ·) ?_ ?_)) ?_
  · show V c main_v31 (((cfg2.win 0).blk t).view.emb (ix2 p k)) = V c main_v31 (ix2 P k)
    refine congrArg _ (funext fun a => Fin.ext ?_)
    match a with
    | ⟨0, _⟩ => show win2_0.index t (0 : Fin 2) * 3000 + 1 * p.val = P.val; omega
    | ⟨1, _⟩ => show win2_0.index t (1 : Fin 2) * 128 + 1 * k.val = k.val; omega
  · show V c main_arg8 (((cfg2.win 2).blk t).view.emb (ix2 k Q)) = V c main_arg8 (ix2 k Q)
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * Q.val = Q.val; omega
  · show V c main_v43 (((cfg2.win 1).blk t).view.emb (ix2 p k)) = V c main_v43 (ix2 P k)
    refine congrArg _ (funext fun a => Fin.ext ?_)
    match a with
    | ⟨0, _⟩ => show win2_1.index t (0 : Fin 2) * 3000 + 1 * p.val = P.val; omega
    | ⟨1, _⟩ => show win2_1.index t (1 : Fin 2) * 128 + 1 * k.val = k.val; omega
  · show V c main_arg9 (((cfg2.win 3).blk t).view.emb (ix2 k Q)) = V c main_arg9 (ix2 k Q)
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * Q.val = Q.val; omega
  · show V c main_v44 (((cfg2.win 4).blk t).view.emb (ix2 (0 : Fin 1) Q)) = V c main_v44 (ix2 (0 : Fin 1) Q)
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * Q.val = Q.val; omega

/-- An index of the array is in point `t`'s block iff each coordinate is in the block's range on its axis. -/
theorem mem_blk (t : Fin cfg2.N) (i : S102000x128.Idx) :
    i ∈ ((cfg2.win 5).blk t).view.set ↔ ∀ a : Fin 2, win2_5.index t a * S3000x128.size a ≤ (i a).val
      ∧ (i a).val < win2_5.index t a * S3000x128.size a + S3000x128.size a := by
  show i ∈ ((View.whole main_v45).slice (win2_5.rect t)).set ↔ _
  rw [View.set_slice_whole, Rect.mem_set_unit]
  exact Iff.rfl

/-- Every node's row lies in the block of the point `r / 3000`. -/
theorem cover (i : S102000x128.Idx) :
    ∃ t : Fin cfg2.N, (cfg2.win 5).flush t = true ∧ i ∈ ((cfg2.win 5).blk t).view.set := by
  have hi0 : (i 0).val < 102000 := (i 0).isLt
  have hi1 : (i 1).val < 128 := (i 1).isLt
  have ht : (i 0).val / 3000 < cfg2.N := by
    rw [show cfg2.N = 34 from N_2]; omega
  refine ⟨⟨(i 0).val / 3000, ht⟩, flush2_5 _, ?_⟩
  rw [mem_blk]
  obtain ⟨f50, f51, -⟩ := idx_facts ⟨(i 0).val / 3000, ht⟩
  have f50' : win2_5.index ⟨(i 0).val / 3000, ht⟩ (0 : Fin 2) = (i 0).val / 3000 := f50
  intro a
  match a with
  | ⟨0, _⟩ =>
    show win2_5.index _ (0 : Fin 2) * 3000 ≤ (i 0).val ∧ (i 0).val < win2_5.index _ (0 : Fin 2) * 3000 + 3000
    omega
  | ⟨1, _⟩ =>
    show win2_5.index _ (1 : Fin 2) * 128 ≤ (i 1).val ∧ (i 1).val < win2_5.index _ (1 : Fin 2) * 128 + 128
    omega

/-- The output array after the region is the dense term of the entry contents of the five input arrays. -/
theorem final (c : Dev nD) :
    (dat2 (F := Ideal) V c).arrAt 5 cfg2.N
      = Cert.ReferenceIdeal.Term.dense (F := Ideal) (V c main_v31) (V c main_v43) (V c main_arg8) (V c main_arg9) (V c main_v44) :=
  (dat2 (F := Ideal) V c).arrAt_eq_of_cover 5 (G V c) (fun t _ => flushed_eq V c t) (cover)

end Cert.KernelIdeal.Layer2

end
-- ==== Proof.KernelTerm.lean ====
/-
  The kernel program's result as one composed term of its arguments.

  It is the reference's term with one change: the neighbour mean is the edge sum TIMES the reciprocal of the floored
  indegree, `nsum(h) · (1 / max(indegree, 1))`, where the reference divides the edge sum by `max(indegree, 1)`.
-/
import proofs.«176279_j24756191494706_1_alg».proof.Proof.RefTerm

noncomputable section

namespace Cert.ReferenceIdeal.Term

open Idealize.ShloMosaic Cert.ReferenceIdeal Cert.ReferenceIdeal.Facts₀

variable {F : FTy → Type} [FloatOps F] [Cert.ReferenceIdeal.Facts]

/-- The reciprocal of the floored indegree, as the kernel takes it. -/
def invDeg (dst : IVec S1000000 32) : FVec F S102000 .f32 :=
  Host.divf (broadcastInDim S102000 ![] bcast_S_S102000 (constant S_ .f32 0x3F800000#32)) (degMax dst)

/-- The neighbour mean as the kernel takes it: the edge sum times the reciprocal of the floored indegree. -/
def nmeanK (h : FVec F S102000x128 .f32) (src dst : IVec S1000000 32) : FVec F S102000x128 .f32 :=
  mulf (nsum h src dst) (perNode (invDeg dst))

/-- The kernel's result of its arguments. -/
def kernOut (wids : IVec S102000x12 32) (len : FVec F S102000 .f32) (src dst : IVec S1000000 32)
    (emb : FVec F S30001x128 .f32) (w1s w1n : FVec F S128x128 .f32) (b1 : FVec F S128 .f32)
    (w2s w2n : FVec F S128x128 .f32) (b2 : FVec F S128 .f32) : FVec F S102000x128 .f32 :=
  let h0 := poolOf (wordRows emb wids) (lenCol len)
  let h1 := leaky (dense h0 (nmeanK h0 src dst) w1s w1n (biasRow b1))
  dense h1 (nmeanK h1 src dst) w2s w2n (biasRow b2)

end Cert.ReferenceIdeal.Term

end
-- ==== Proof.Stretches.lean ====
/-
  What the kernel program's host operations leave in the arrays each region reads.

  Before the pooling region: the gathered word rows and the word-count column. Between the regions: the previous
  region's output untouched, the neighbour mean of it (the edge sum times the reciprocal of the floored indegree), the
  layer's two weight matrices as launched and its bias as a row. The reciprocal column is computed once, before the
  first dense region, and read again before the second.
-/
import proofs.«176279_j24756191494706_1_alg».proof.Proof.Gen.KernelIdeal.Frame
import proofs.«176279_j24756191494706_1_alg».proof.Proof.Gen.ReferenceIdeal
import proofs.«176279_j24756191494706_1_alg».proof.Proof.KernelTerm
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal (Term.wordRows Term.lenCol Term.nmeanK Term.biasRow Term.invDeg)

variable {F : FTy → Type} [FloatOps F]
variable (m : (ℓ : Loc nD τ sig) → Buf (Elt F) ℓ) (ρ : Dev nD → PrngReg) (c : Dev nD)

/-- Read one buffer after a stretch of host operations: each operation's result at its own buffer, what was there at
    every other. -/
local macro "stretch_read" : tactic =>
  `(tactic| (dsimp only [hostOps0, hostOps1, hostOps2]; after_results))

/-- The same in one pass, for a value several later operations consume. -/
local macro "stretch_read_shared" : tactic =>
  `(tactic| ((conv_lhs => dsimp only [hostOps0, hostOps1, hostOps2]); after_results_simp))

/-! ## Before the pooling region -/

theorem V1_rows : V1 m ρ c main_v6 = Term.wordRows (m ((c : Thread nD τ).loc main_arg4)) (m ((c : Thread nD τ).loc main_arg0)) := by
  show StableHlo.after hostOps0 (W0 m ρ c) (Proc.devRef .tc main_v6) = _
  stretch_read
  all_goals rfl

theorem V1_len : V1 m ρ c main_v7 = Term.lenCol (m ((c : Thread nD τ).loc main_arg1)) := by
  show StableHlo.after hostOps0 (W0 m ρ c) (Proc.devRef .tc main_v7) = _
  stretch_read
  all_goals rfl

/-! ## The arguments the later stretches read, at each boundary -/

theorem W1_arg2 : W1 m ρ c (Proc.devRef .tc main_arg2) = m ((c : Thread nD τ).loc main_arg2) := by
  show StableHlo.after hostOps0 (W0 m ρ c) (Proc.devRef .tc main_arg2) = _
  stretch_read
  all_goals rfl
theorem W2_arg2 : W2 m ρ c (Proc.devRef .tc main_arg2) = m ((c : Thread nD τ).loc main_arg2) :=
  (W2_of_ne m ρ c main_arg2 (by decide)).trans (W1_arg2 m ρ c)
theorem W1_arg3 : W1 m ρ c (Proc.devRef .tc main_arg3) = m ((c : Thread nD τ).loc main_arg3) := by
  show StableHlo.after hostOps0 (W0 m ρ c) (Proc.devRef .tc main_arg3) = _
  stretch_read
  all_goals rfl
theorem W2_arg3 : W2 m ρ c (Proc.devRef .tc main_arg3) = m ((c : Thread nD τ).loc main_arg3) :=
  (W2_of_ne m ρ c main_arg3 (by decide)).trans (W1_arg3 m ρ c)
theorem W1_arg5 : W1 m ρ c (Proc.devRef .tc main_arg5) = m ((c : Thread nD τ).loc main_arg5) := by
  show StableHlo.after hostOps0 (W0 m ρ c) (Proc.devRef .tc main_arg5) = _
  stretch_read
  all_goals rfl
theorem W2_arg5 : W2 m ρ c (Proc.devRef .tc main_arg5) = m ((c : Thread nD τ).loc main_arg5) :=
  (W2_of_ne m ρ c main_arg5 (by decide)).trans (W1_arg5 m ρ c)
theorem W1_arg6 : W1 m ρ c (Proc.devRef .tc main_arg6) = m ((c : Thread nD τ).loc main_arg6) := by
  show StableHlo.after hostOps0 (W0 m ρ c) (Proc.devRef .tc main_arg6) = _
  stretch_read
  all_goals rfl
theorem W2_arg6 : W2 m ρ c (Proc.devRef .tc main_arg6) = m ((c : Thread nD τ).loc main_arg6) :=
  (W2_of_ne m ρ c main_arg6 (by decide)).trans (W1_arg6 m ρ c)
theorem W1_arg7 : W1 m ρ c (Proc.devRef .tc main_arg7) = m ((c : Thread nD τ).loc main_arg7) := by
  show StableHlo.after hostOps0 (W0 m ρ c) (Proc.devRef .tc main_arg7) = _
  stretch_read
  all_goals rfl
theorem W2_arg7 : W2 m ρ c (Proc.devRef .tc main_arg7) = m ((c : Thread nD τ).loc main_arg7) :=
  (W2_of_ne m ρ c main_arg7 (by decide)).trans (W1_arg7 m ρ c)
theorem W1_arg8 : W1 m ρ c (Proc.devRef .tc main_arg8) = m ((c : Thread nD τ).loc main_arg8) := by
  show StableHlo.after hostOps0 (W0 m ρ c) (Proc.devRef .tc main_arg8) = _
  stretch_read
  all_goals rfl
theorem W2_arg8 : W2 m ρ c (Proc.devRef .tc main_arg8) = m ((c : Thread nD τ).loc main_arg8) :=
  (W2_of_ne m ρ c main_arg8 (by decide)).trans (W1_arg8 m ρ c)
theorem W1_arg9 : W1 m ρ c (Proc.devRef .tc main_arg9) = m ((c : Thread nD τ).loc main_arg9) := by
  show StableHlo.after hostOps0 (W0 m ρ c) (Proc.devRef .tc main_arg9) = _
  stretch_read
  all_goals rfl
theorem W2_arg9 : W2 m ρ c (Proc.devRef .tc main_arg9) = m ((c : Thread nD τ).loc main_arg9) :=
  (W2_of_ne m ρ c main_arg9 (by decide)).trans (W1_arg9 m ρ c)
theorem W1_arg10 : W1 m ρ c (Proc.devRef .tc main_arg10) = m ((c : Thread nD τ).loc main_arg10) := by
  show StableHlo.after hostOps0 (W0 m ρ c) (Proc.devRef .tc main_arg10) = _
  stretch_read
  all_goals rfl
theorem W2_arg10 : W2 m ρ c (Proc.devRef .tc main_arg10) = m ((c : Thread nD τ).loc main_arg10) :=
  (W2_of_ne m ρ c main_arg10 (by decide)).trans (W1_arg10 m ρ c)

theorem W3_arg2 : W3 m ρ c (Proc.devRef .tc main_arg2) = m ((c : Thread nD τ).loc main_arg2) := by
  show StableHlo.after hostOps1 (W2 m ρ c) (Proc.devRef .tc main_arg2) = _
  stretch_read
  exact W2_arg2 m ρ c
theorem W4_arg2 : W4 m ρ c (Proc.devRef .tc main_arg2) = m ((c : Thread nD τ).loc main_arg2) :=
  (W4_of_ne m ρ c main_arg2 (by decide)).trans (W3_arg2 m ρ c)
theorem W3_arg3 : W3 m ρ c (Proc.devRef .tc main_arg3) = m ((c : Thread nD τ).loc main_arg3) := by
  show StableHlo.after hostOps1 (W2 m ρ c) (Proc.devRef .tc main_arg3) = _
  stretch_read
  exact W2_arg3 m ρ c
theorem W4_arg3 : W4 m ρ c (Proc.devRef .tc main_arg3) = m ((c : Thread nD τ).loc main_arg3) :=
  (W4_of_ne m ρ c main_arg3 (by decide)).trans (W3_arg3 m ρ c)
theorem W3_arg8 : W3 m ρ c (Proc.devRef .tc main_arg8) = m ((c : Thread nD τ).loc main_arg8) := by
  show StableHlo.after hostOps1 (W2 m ρ c) (Proc.devRef .tc main_arg8) = _
  stretch_read
  exact W2_arg8 m ρ c
theorem W4_arg8 : W4 m ρ c (Proc.devRef .tc main_arg8) = m ((c : Thread nD τ).loc main_arg8) :=
  (W4_of_ne m ρ c main_arg8 (by decide)).trans (W3_arg8 m ρ c)
theorem W3_arg9 : W3 m ρ c (Proc.devRef .tc main_arg9) = m ((c : Thread nD τ).loc main_arg9) := by
  show StableHlo.after hostOps1 (W2 m ρ c) (Proc.devRef .tc main_arg9) = _
  stretch_read
  exact W2_arg9 m ρ c
theorem W4_arg9 : W4 m ρ c (Proc.devRef .tc main_arg9) = m ((c : Thread nD τ).loc main_arg9) :=
  (W4_of_ne m ρ c main_arg9 (by decide)).trans (W3_arg9 m ρ c)
theorem W3_arg10 : W3 m ρ c (Proc.devRef .tc main_arg10) = m ((c : Thread nD τ).loc main_arg10) := by
  show StableHlo.after hostOps1 (W2 m ρ c) (Proc.devRef .tc main_arg10) = _
  stretch_read
  exact W2_arg10 m ρ c
theorem W4_arg10 : W4 m ρ c (Proc.devRef .tc main_arg10) = m ((c : Thread nD τ).loc main_arg10) :=
  (W4_of_ne m ρ c main_arg10 (by decide)).trans (W3_arg10 m ρ c)

/-! ## Before the first dense region -/

theorem W2_pooled : W2 m ρ c (Proc.devRef .tc main_v8) = (dat0 (V1 m ρ) c).arrAt 2 cfg0.N := W2_arr m ρ c 2

theorem V3_h : V3 m ρ c main_v8 = (dat0 (V1 m ρ) c).arrAt 2 cfg0.N := by
  show StableHlo.after hostOps1 (W2 m ρ c) (Proc.devRef .tc main_v8) = _
  stretch_read
  exact W2_pooled m ρ c

theorem V3_hn : V3 m ρ c main_v29
    = Term.nmeanK ((dat0 (V1 m ρ) c).arrAt 2 cfg0.N) (m ((c : Thread nD τ).loc main_arg2)) (m ((c : Thread nD τ).loc main_arg3)) := by
  show StableHlo.after hostOps1 (W2 m ρ c) (Proc.devRef .tc main_v29) = _
  stretch_read_shared
  rw [W2_pooled, W2_arg2, W2_arg3]
  rfl

theorem V3_ws : V3 m ρ c main_arg5 = m ((c : Thread nD τ).loc main_arg5) := by
  show StableHlo.after hostOps1 (W2 m ρ c) (Proc.devRef .tc main_arg5) = _
  stretch_read
  exact W2_arg5 m ρ c

theorem V3_wn : V3 m ρ c main_arg6 = m ((c : Thread nD τ).loc main_arg6) := by
  show StableHlo.after hostOps1 (W2 m ρ c) (Proc.devRef .tc main_arg6) = _
  stretch_read
  exact W2_arg6 m ρ c

theorem V3_b : V3 m ρ c main_v30 = Term.biasRow (m ((c : Thread nD τ).loc main_arg7)) := by
  show StableHlo.after hostOps1 (W2 m ρ c) (Proc.devRef .tc main_v30) = _
  stretch_read
  rw [W2_arg7]
  rfl

/-- The reciprocal column, computed before the first dense region, is still there before the second. -/
theorem W4_inv : W4 m ρ c (Proc.devRef .tc main_v17)
    = broadcastInDim S102000x1 ![0] Facts₀.bcast_S102000_S102000x1_0 (Term.invDeg (m ((c : Thread nD τ).loc main_arg3))) := by
  refine (W4_of_ne m ρ c main_v17 (by decide)).trans ?_
  show StableHlo.after hostOps1 (W2 m ρ c) (Proc.devRef .tc main_v17) = _
  stretch_read
  rw [W2_arg3]
  rfl

/-! ## Before the second dense region -/

theorem W4_layer1 : W4 m ρ c (Proc.devRef .tc main_v31) = (dat1 (V3 m ρ) c).arrAt 5 cfg1.N := W4_arr m ρ c 5

theorem V5_h : V5 m ρ c main_v31 = (dat1 (V3 m ρ) c).arrAt 5 cfg1.N := by
  show StableHlo.after hostOps2 (W4 m ρ c) (Proc.devRef .tc main_v31) = _
  stretch_read
  exact W4_layer1 m ρ c

theorem V5_hn : V5 m ρ c main_v43
    = Term.nmeanK ((dat1 (V3 m ρ) c).arrAt 5 cfg1.N) (m ((c : Thread nD τ).loc main_arg2)) (m ((c : Thread nD τ).loc main_arg3)) := by
  show StableHlo.after hostOps2 (W4 m ρ c) (Proc.devRef .tc main_v43) = _
  stretch_read_shared
  rw [W4_layer1, W4_arg2, W4_arg3, W4_inv]
  rfl

theorem V5_ws : V5 m ρ c main_arg8 = m ((c : Thread nD τ).loc main_arg8) := by
  show StableHlo.after hostOps2 (W4 m ρ c) (Proc.devRef .tc main_arg8) = _
  stretch_read
  exact W4_arg8 m ρ c

theorem V5_wn : V5 m ρ c main_arg9 = m ((c : Thread nD τ).loc main_arg9) := by
  show StableHlo.after hostOps2 (W4 m ρ c) (Proc.devRef .tc main_arg9) = _
  stretch_read
  exact W4_arg9 m ρ c

theorem V5_b : V5 m ρ c main_v44 = Term.biasRow (m ((c : Thread nD τ).loc main_arg10)) := by
  show StableHlo.after hostOps2 (W4 m ρ c) (Proc.devRef .tc main_v44) = _
  stretch_read
  rw [W4_arg10]
  rfl

end Cert.KernelIdeal.Stretch

end
-- ==== Proof.KernelValue.lean ====
/-
  The kernel program's result array, whole: the three regions' arrays chained through the host operations between
  them. The pooling region leaves the mean-pooled features; the first dense region leaves the rectified first layer of
  those and of their neighbour means; the second leaves the second layer of that — the kernel's result term of the
  launch contents of its arguments.
-/
import proofs.«176279_j24756191494706_1_alg».proof.Proof.Region0
import proofs.«176279_j24756191494706_1_alg».proof.Proof.Region1
import proofs.«176279_j24756191494706_1_alg».proof.Proof.Region2
import proofs.«176279_j24756191494706_1_alg».proof.Proof.Stretches

set_option maxRecDepth 16384

noncomputable section

namespace Cert.KernelIdeal.Value

open Cert.KernelIdeal Cert.KernelIdeal.Gen
open Idealize.ShloMosaic Idealize.ShloMosaic.TcCoe Idealize.SL.Sem
open Cert.ReferenceIdeal (Term.poolOf Term.wordRows Term.lenCol Term.leaky Term.dense Term.nmeanK Term.biasRow Term.kernOut)

variable (m : (ℓ : Loc nD τ sig) → Buf (Elt Ideal) ℓ) (ρ : Dev nD → PrngReg) (c : Dev nD)

/-- The mean-pooled features of the launch contents: the pooled word rows over the word counts. -/
abbrev h0 : FVec Ideal Cert.ReferenceIdeal.S102000x128 .f32 :=
  Term.poolOf (F := Ideal) (Term.wordRows (F := Ideal) (m ((c : Thread nD τ).loc main_arg4)) (m ((c : Thread nD τ).loc main_arg0)))
    (Term.lenCol (F := Ideal) (m ((c : Thread nD τ).loc main_arg1)))

/-- The rectified first layer of the pooled features and of their neighbour means. -/
abbrev h1 : FVec Ideal Cert.ReferenceIdeal.S102000x128 .f32 :=
  Term.leaky (F := Ideal)
    (Term.dense (F := Ideal) (h0 m c) (Term.nmeanK (F := Ideal) (h0 m c) (m ((c : Thread nD τ).loc main_arg2)) (m ((c : Thread nD τ).loc main_arg3)))
      (m ((c : Thread nD τ).loc main_arg5)) (m ((c : Thread nD τ).loc main_arg6)) (Term.biasRow (F := Ideal) (m ((c : Thread nD τ).loc main_arg7))))

/-- After the pooling region: the mean-pooled features of the launch contents. -/
theorem pooled : (dat0 (F := Ideal) (V1 m ρ) c).arrAt 2 cfg0.N = h0 m c := by
  rw [Pool.final (V1 m ρ) c, Stretch.V1_rows, Stretch.V1_len]

/-- After the first dense region: the rectified first layer. -/
theorem layer1 : (dat1 (F := Ideal) (V3 m ρ) c).arrAt 5 cfg1.N = h1 m c := by
  rw [Layer1.final (V3 m ρ) c, Stretch.V3_h, Stretch.V3_hn, Stretch.V3_ws, Stretch.V3_wn, Stretch.V3_b, pooled]

/-- After the second dense region: the kernel's result term of the launch contents of its arguments. -/
theorem result : (dat2 (F := Ideal) (V5 m ρ) c).arrAt 5 cfg2.N
    = Term.kernOut (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  rw [Layer2.final (V5 m ρ) c, Stretch.V5_h, Stretch.V5_hn, Stretch.V5_ws, Stretch.V5_wn, Stretch.V5_b, layer1]
  rfl

end Cert.KernelIdeal.Value

end
-- ==== Proof.RefRun.lean ====
/-
  The reference's run: every weakly fair execution of its host program terminates with the result buffer at
  `Term.refOut` of the argument buffers, the arguments unchanged.
-/
import proofs.«176279_j24756191494706_1_alg».proof.Proof.Gen.ReferenceIdeal
import proofs.«176279_j24756191494706_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 84 operations in order: the first window's, with the call of the leaky rectifier replaced by that
    function's six operations and the select of the function it calls in turn (over the call's own buffers), then the
    second window's. -/
abbrev ops : List (HloOp τ sig (Elt F)) :=
  [ nullary main_c (constantI S_ 32 0#32),
    unary main_c main_v0 (broadcastInDim S102000x12 ![] bcast_S_S102000x12 : (⟨S_, .i32⟩ : BufTy).Contents (Elt F) → (⟨S102000x12, .i32⟩ : BufTy).Contents (Elt F)),
    binary main_arg0 main_v0 main_v1 (cmpi .slt : (⟨S102000x12, .i32⟩ : BufTy).Contents (Elt F) → (⟨S102000x12, .i32⟩ : BufTy).Contents (Elt F) → (⟨S102000x12, .i1⟩ : BufTy).Contents (Elt F)),
    nullary main_c_0 (constantI S_ 32 30001#32),
    unary main_c_0 main_v2 (broadcastInDim S102000x12 ![] bcast_S_S102000x12 : (⟨S_, .i32⟩ : BufTy).Contents (Elt F) → (⟨S102000x12, .i32⟩ : BufTy).Contents (Elt F)),
    binary main_arg0 main_v2 main_v3 (addi : (⟨S102000x12, .i32⟩ : BufTy).Contents (Elt F) → (⟨S102000x12, .i32⟩ : BufTy).Contents (Elt F) → (⟨S102000x12, .i32⟩ : BufTy).Contents (Elt F)),
    ternary main_v1 main_v3 main_arg0 main_v4 (select : (⟨S102000x12, .i1⟩ : BufTy).Contents (Elt F) → (⟨S102000x12, .i32⟩ : BufTy).Contents (Elt F) → (⟨S102000x12, .i32⟩ : BufTy).Contents (Elt F) → (⟨S102000x12, .i32⟩ : BufTy).Contents (Elt F)),
    unary main_v4 main_v5 (broadcastInDim S102000x12x1 ![0, 1] bcast_S102000x12_S102000x12x1_0_1 : (⟨S102000x12, .i32⟩ : BufTy).Contents (Elt F) → (⟨S102000x12x1, .i32⟩ : BufTy).Contents (Elt F)),
    binary main_arg4 main_v5 main_v6 ((fun x i => Host.gather gather_S30001x128_S102000x12x1_S102000x12x128_2_0_n_n_0_2_1128 x i) : (⟨S30001x128, .f32⟩ : BufTy).Contents (Elt F) → (⟨S102000x12x1, .i32⟩ : BufTy).Contents (Elt F) → (⟨S102000x12x128, .f32⟩ : BufTy).Contents (Elt F)),
    nullary main_cst (constant S_ .f32 0x00000000#32),
    binary main_v6 main_cst main_v7 ((fun x v => Host.reduceAdd x v reducesTo_S102000x12x128_S102000x128_d1 h_S_) : (⟨S102000x12x128, .f32⟩ : BufTy).Contents (Elt F) → (⟨S_, .f32⟩ : BufTy).Contents (Elt F) → (⟨S102000x128, .f32⟩ : BufTy).Contents (Elt F)),
    unary main_arg1 main_v8 (broadcastInDim S102000x1 ![0] bcast_S102000_S102000x1_0 : (⟨S102000, .f32⟩ : BufTy).Contents (Elt F) → (⟨S102000x1, .f32⟩ : BufTy).Contents (Elt F)),
    unary main_v8 main_v9 (broadcastInDim S102000x128 ![0, 1] bcast_S102000x1_S102000x128_0_1 : (⟨S102000x1, .f32⟩ : BufTy).Contents (Elt F) → (⟨S102000x128, .f32⟩ : BufTy).Contents (Elt F)),
    binary main_v7 main_v9 main_v10 (Host.divf : (⟨S102000x128, .f32⟩ : BufTy).Contents (Elt F) → (⟨S102000x128, .f32⟩ : BufTy).Contents (Elt F) → (⟨S102000x128, .f32⟩ : BufTy).Contents (Elt F)),
    nullary main_cst_1 (constant S_ .f32 0x3F800000#32),
    unary main_cst_1 main_v11 (broadcastInDim S1000000 ![] bcast_S_S1000000 : (⟨S_, .f32⟩ : BufTy).Contents (Elt F) → (⟨S1000000, .f32⟩ : BufTy).Contents (Elt F)),
    nullary main_cst_2 (constant S_ .f32 0x00000000#32),
    unary main_cst_2 main_v12 (broadcastInDim S102000 ![] bcast_S_S102000 : (⟨S_, .f32⟩ : BufTy).Contents (Elt F) → (⟨S102000, .f32⟩ : BufTy).Contents (Elt F)),
    unary main_arg3 main_v13 (broadcastInDim S1000000x1 ![0] bcast_S1000000_S1000000x1_0 : (⟨S1000000, .i32⟩ : BufTy).Contents (Elt F) → (⟨S1000000x1, .i32⟩ : BufTy).Contents (Elt F)),
    ternary main_v12 main_v13 main_v11 main_v14 ((fun x i u => Host.scatterAdd scatter_S102000_S1000000x1_S1000000_n_0_0_1 x i u) : (⟨S102000, .f32⟩ : BufTy).Contents (Elt F) → (⟨S1000000x1, .i32⟩ : BufTy).Contents (Elt F) → (⟨S1000000, .f32⟩ : BufTy).Contents (Elt F) → (⟨S102000, .f32⟩ : BufTy).Contents (Elt F)),
    nullary main_c_3 (constantI S_ 32 0#32),
    unary main_c_3 main_v15 (broadcastInDim S1000000 ![] bcast_S_S1000000 : (⟨S_, .i32⟩ : BufTy).Contents (Elt F) → (⟨S1000000, .i32⟩ : BufTy).Contents (Elt F)),
    binary main_arg2 main_v15 main_v16 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 102000#32),
    unary main_c_4 main_v17 (broadcastInDim S1000000 ![] bcast_S_S1000000 : (⟨S_, .i32⟩ : BufTy).Contents (Elt F) → (⟨S1000000, .i32⟩ : BufTy).Contents (Elt F)),
    binary main_arg2 main_v17 main_v18 (addi : (⟨S1000000, .i32⟩ : BufTy).Contents (Elt F) → (⟨S1000000, .i32⟩ : BufTy).Contents (Elt F) → (⟨S1000000, .i32⟩ : BufTy).Contents (Elt F)),
    ternary main_v16 main_v18 main_arg2 main_v19 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v19 main_v20 (broadcastInDim S1000000x1 ![0] bcast_S1000000_S1000000x1_0 : (⟨S1000000, .i32⟩ : BufTy).Contents (Elt F) → (⟨S1000000x1, .i32⟩ : BufTy).Contents (Elt F)),
    binary main_v10 main_v20 main_v21 ((fun x i => Host.gather gather_S102000x128_S1000000x1_S1000000x128_1_0_n_n_0_1_1128 x i) : (⟨S102000x128, .f32⟩ : BufTy).Contents (Elt F) → (⟨S1000000x1, .i32⟩ : BufTy).Contents (Elt F) → (⟨S1000000x128, .f32⟩ : BufTy).Contents (Elt F)),
    nullary main_cst_5 (constant S_ .f32 0x00000000#32),
    unary main_cst_5 main_v22 (broadcastInDim S102000x128 ![] bcast_S_S102000x128 : (⟨S_, .f32⟩ : BufTy).Contents (Elt F) → (⟨S102000x128, .f32⟩ : BufTy).Contents (Elt F)),
    unary main_arg3 main_v23 (broadcastInDim S1000000x1 ![0] bcast_S1000000_S1000000x1_0 : (⟨S1000000, .i32⟩ : BufTy).Contents (Elt F) → (⟨S1000000x1, .i32⟩ : BufTy).Contents (Elt F)),
    ternary main_v22 main_v23 main_v21 main_v24 ((fun x i u => Host.scatterAdd scatter_S102000x128_S1000000x1_S1000000x128_1_0_0_1 x i u) : (⟨S102000x128, .f32⟩ : BufTy).Contents (Elt F) → (⟨S1000000x1, .i32⟩ : BufTy).Contents (Elt F) → (⟨S1000000x128, .f32⟩ : BufTy).Contents (Elt F) → (⟨S102000x128, .f32⟩ : BufTy).Contents (Elt F)),
    nullary main_cst_6 (constant S_ .f32 0x3F800000#32),
    unary main_cst_6 main_v25 (broadcastInDim S102000 ![] bcast_S_S102000 : (⟨S_, .f32⟩ : BufTy).Contents (Elt F) → (⟨S102000, .f32⟩ : BufTy).Contents (Elt F)),
    binary main_v14 main_v25 main_v26 (maximumf : (⟨S102000, .f32⟩ : BufTy).Contents (Elt F) → (⟨S102000, .f32⟩ : BufTy).Contents (Elt F) → (⟨S102000, .f32⟩ : BufTy).Contents (Elt F)),
    unary main_v26 main_v27 (broadcastInDim S102000x1 ![0] bcast_S102000_S102000x1_0 : (⟨S102000, .f32⟩ : BufTy).Contents (Elt F) → (⟨S102000x1, .f32⟩ : BufTy).Contents (Elt F)),
    unary main_v27 main_v28 (broadcastInDim S102000x128 ![0, 1] bcast_S102000x1_S102000x128_0_1 : (⟨S102000x1, .f32⟩ : BufTy).Contents (Elt F) → (⟨S102000x128, .f32⟩ : BufTy).Contents (Elt F)),
    binary main_v24 main_v28 main_v29 (Host.divf : (⟨S102000x128, .f32⟩ : BufTy).Contents (Elt F) → (⟨S102000x128, .f32⟩ : BufTy).Contents (Elt F) → (⟨S102000x128, .f32⟩ : BufTy).Contents (Elt F)),
    binary main_v10 main_arg5 main_v30 ((fun l r => Host.dotGeneral dot_S102000x128_S128x128_S102000x128_1_0_0_1_n_n none l r) : (⟨S102000x128, .f32⟩ : BufTy).Contents (Elt F) → (⟨S128x128, .f32⟩ : BufTy).Contents (Elt F) → (⟨S102000x128, .f32⟩ : BufTy).Contents (Elt F)),
    binary main_v29 main_arg6 main_v31 ((fun l r => Host.dotGeneral dot_S102000x128_S128x128_S102000x128_1_0_0_1_n_n none l r) : (⟨S102000x128, .f32⟩ : BufTy).Contents (Elt F) → (⟨S128x128, .f32⟩ : BufTy).Contents (Elt F) → (⟨S102000x128, .f32⟩ : BufTy).Contents (Elt F)),
    binary main_v30 main_v31 main_v32 (addf : (⟨S102000x128, .f32⟩ : BufTy).Contents (Elt F) → (⟨S102000x128, .f32⟩ : BufTy).Contents (Elt F) → (⟨S102000x128, .f32⟩ : BufTy).Contents (Elt F)),
    unary main_arg7 main_v33 (broadcastInDim S1x128 ![1] bcast_S128_S1x128_1 : (⟨S128, .f32⟩ : BufTy).Contents (Elt F) → (⟨S1x128, .f32⟩ : BufTy).Contents (Elt F)),
    unary main_v33 main_v34 (broadcastInDim S102000x128 ![0, 1] bcast_S1x128_S102000x128_0_1 : (⟨S1x128, .f32⟩ : BufTy).Contents (Elt F) → (⟨S102000x128, .f32⟩ : BufTy).Contents (Elt F)),
    binary main_v32 main_v34 main_v35 (addf : (⟨S102000x128, .f32⟩ : BufTy).Contents (Elt F) → (⟨S102000x128, .f32⟩ : BufTy).Contents (Elt F) → (⟨S102000x128, .f32⟩ : BufTy).Contents (Elt F)),
    nullary main_cst_7 (constant S_ .f32 0x3C23D70A#32),
    TRef.nullary main_call0.cst (constant S_ .f32 0x00000000#32),
    TRef.unary main_call0.cst main_call0.v0 (broadcastInDim S102000x128 ![] bcast_S_S102000x128),
    TRef.binary (.of main_v35) main_call0.v0 main_call0.v1 (cmpf .oge),
    TRef.unary (.of main_cst_7) main_call0.v2 id,
    TRef.unary main_call0.v2 main_call0.v3 (broadcastInDim S102000x128 ![] bcast_S_S102000x128),
    TRef.binary main_call0.v3 (.of main_v35) main_call0.v4 mulf,
    TRef.ternary main_call0.v1 (.of main_v35) main_call0.v4 main_call0_call0.v0 select,
    nullary main_cst_8 (constant S_ .f32 0x3F800000#32),
    unary main_cst_8 main_v37 (broadcastInDim S1000000 ![] bcast_S_S1000000 : (⟨S_, .f32⟩ : BufTy).Contents (Elt F) → (⟨S1000000, .f32⟩ : BufTy).Contents (Elt F)),
    nullary main_cst_9 (constant S_ .f32 0x00000000#32),
    unary main_cst_9 main_v38 (broadcastInDim S102000 ![] bcast_S_S102000 : (⟨S_, .f32⟩ : BufTy).Contents (Elt F) → (⟨S102000, .f32⟩ : BufTy).Contents (Elt F)),
    unary main_arg3 main_v39 (broadcastInDim S1000000x1 ![0] bcast_S1000000_S1000000x1_0 : (⟨S1000000, .i32⟩ : BufTy).Contents (Elt F) → (⟨S1000000x1, .i32⟩ : BufTy).Contents (Elt F)),
    ternary main_v38 main_v39 main_v37 main_v40 ((fun x i u => Host.scatterAdd scatter_S102000_S1000000x1_S1000000_n_0_0_1 x i u) : (⟨S102000, .f32⟩ : BufTy).Contents (Elt F) → (⟨S1000000x1, .i32⟩ : BufTy).Contents (Elt F) → (⟨S1000000, .f32⟩ : BufTy).Contents (Elt F) → (⟨S102000, .f32⟩ : BufTy).Contents (Elt F)),
    nullary main_c_10 (constantI S_ 32 0#32),
    unary main_c_10 main_v41 (broadcastInDim S1000000 ![] bcast_S_S1000000 : (⟨S_, .i32⟩ : BufTy).Contents (Elt F) → (⟨S1000000, .i32⟩ : BufTy).Contents (Elt F)),
    binary main_arg2 main_v41 main_v42 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 102000#32),
    unary main_c_11 main_v43 (broadcastInDim S1000000 ![] bcast_S_S1000000 : (⟨S_, .i32⟩ : BufTy).Contents (Elt F) → (⟨S1000000, .i32⟩ : BufTy).Contents (Elt F)),
    binary main_arg2 main_v43 main_v44 (addi : (⟨S1000000, .i32⟩ : BufTy).Contents (Elt F) → (⟨S1000000, .i32⟩ : BufTy).Contents (Elt F) → (⟨S1000000, .i32⟩ : BufTy).Contents (Elt F)),
    ternary main_v42 main_v44 main_arg2 main_v45 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v45 main_v46 (broadcastInDim S1000000x1 ![0] bcast_S1000000_S1000000x1_0 : (⟨S1000000, .i32⟩ : BufTy).Contents (Elt F) → (⟨S1000000x1, .i32⟩ : BufTy).Contents (Elt F)),
    binary main_v36 main_v46 main_v47 ((fun x i => Host.gather gather_S102000x128_S1000000x1_S1000000x128_1_0_n_n_0_1_1128 x i) : (⟨S102000x128, .f32⟩ : BufTy).Contents (Elt F) → (⟨S1000000x1, .i32⟩ : BufTy).Contents (Elt F) → (⟨S1000000x128, .f32⟩ : BufTy).Contents (Elt F)),
    nullary main_cst_12 (constant S_ .f32 0x00000000#32),
    unary main_cst_12 main_v48 (broadcastInDim S102000x128 ![] bcast_S_S102000x128 : (⟨S_, .f32⟩ : BufTy).Contents (Elt F) → (⟨S102000x128, .f32⟩ : BufTy).Contents (Elt F)),
    unary main_arg3 main_v49 (broadcastInDim S1000000x1 ![0] bcast_S1000000_S1000000x1_0 : (⟨S1000000, .i32⟩ : BufTy).Contents (Elt F) → (⟨S1000000x1, .i32⟩ : BufTy).Contents (Elt F)),
    ternary main_v48 main_v49 main_v47 main_v50 ((fun x i u => Host.scatterAdd scatter_S102000x128_S1000000x1_S1000000x128_1_0_0_1 x i u) : (⟨S102000x128, .f32⟩ : BufTy).Contents (Elt F) → (⟨S1000000x1, .i32⟩ : BufTy).Contents (Elt F) → (⟨S1000000x128, .f32⟩ : BufTy).Contents (Elt F) → (⟨S102000x128, .f32⟩ : BufTy).Contents (Elt F)),
    nullary main_cst_13 (constant S_ .f32 0x3F800000#32),
    unary main_cst_13 main_v51 (broadcastInDim S102000 ![] bcast_S_S102000 : (⟨S_, .f32⟩ : BufTy).Contents (Elt F) → (⟨S102000, .f32⟩ : BufTy).Contents (Elt F)),
    binary main_v40 main_v51 main_v52 (maximumf : (⟨S102000, .f32⟩ : BufTy).Contents (Elt F) → (⟨S102000, .f32⟩ : BufTy).Contents (Elt F) → (⟨S102000, .f32⟩ : BufTy).Contents (Elt F)),
    unary main_v52 main_v53 (broadcastInDim S102000x1 ![0] bcast_S102000_S102000x1_0 : (⟨S102000, .f32⟩ : BufTy).Contents (Elt F) → (⟨S102000x1, .f32⟩ : BufTy).Contents (Elt F)),
    unary main_v53 main_v54 (broadcastInDim S102000x128 ![0, 1] bcast_S102000x1_S102000x128_0_1 : (⟨S102000x1, .f32⟩ : BufTy).Contents (Elt F) → (⟨S102000x128, .f32⟩ : BufTy).Contents (Elt F)),
    binary main_v50 main_v54 main_v55 (Host.divf : (⟨S102000x128, .f32⟩ : BufTy).Contents (Elt F) → (⟨S102000x128, .f32⟩ : BufTy).Contents (Elt F) → (⟨S102000x128, .f32⟩ : BufTy).Contents (Elt F)),
    binary main_v36 main_arg8 main_v56 ((fun l r => Host.dotGeneral dot_S102000x128_S128x128_S102000x128_1_0_0_1_n_n none l r) : (⟨S102000x128, .f32⟩ : BufTy).Contents (Elt F) → (⟨S128x128, .f32⟩ : BufTy).Contents (Elt F) → (⟨S102000x128, .f32⟩ : BufTy).Contents (Elt F)),
    binary main_v55 main_arg9 main_v57 ((fun l r => Host.dotGeneral dot_S102000x128_S128x128_S102000x128_1_0_0_1_n_n none l r) : (⟨S102000x128, .f32⟩ : BufTy).Contents (Elt F) → (⟨S128x128, .f32⟩ : BufTy).Contents (Elt F) → (⟨S102000x128, .f32⟩ : BufTy).Contents (Elt F)),
    binary main_v56 main_v57 main_v58 (addf : (⟨S102000x128, .f32⟩ : BufTy).Contents (Elt F) → (⟨S102000x128, .f32⟩ : BufTy).Contents (Elt F) → (⟨S102000x128, .f32⟩ : BufTy).Contents (Elt F)),
    unary main_arg10 main_v59 (broadcastInDim S1x128 ![1] bcast_S128_S1x128_1 : (⟨S128, .f32⟩ : BufTy).Contents (Elt F) → (⟨S1x128, .f32⟩ : BufTy).Contents (Elt F)),
    unary main_v59 main_v60 (broadcastInDim S102000x128 ![0, 1] bcast_S1x128_S102000x128_0_1 : (⟨S1x128, .f32⟩ : BufTy).Contents (Elt F) → (⟨S102000x128, .f32⟩ : BufTy).Contents (Elt F)),
    binary main_v58 main_v60 main_v61 (addf : (⟨S102000x128, .f32⟩ : BufTy).Contents (Elt F) → (⟨S102000x128, .f32⟩ : BufTy).Contents (Elt F) → (⟨S102000x128, .f32⟩ : BufTy).Contents (Elt F)) ]

-- the two windows and the two functions unfold one bind deep per statement, eighty-four in all
set_option maxRecDepth 8192 in
set_option maxHeartbeats 4000000 in
/-- The program is that straight line: sequencing is structural recursion on the first program, so the two windows run in
    order, with the functions' bodies at their calls, compute to the one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    unary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub .., binary_bufs_sub .., binary_bufs_sub .., unary_bufs_sub .., unary_bufs_sub .., binary_bufs_sub ..⟩

/-! ## The fold, read at the result and at each argument

Each operation writes one buffer of its own and no operation writes an argument, so the fold read at a buffer is that
buffer's operation applied to the fold read at its operands, down to the arguments: one equation per operation at its own
buffer, one inequality of references per operation passed on the way. What is left at the result is the operations'
composed term, which is `Term.refOut` once its pieces are unfolded; the typed references' transports are the identity at
these literal references. The gathers, the scatter-sums and the reduction stay folded throughout: the equation never looks
inside them. -/

attribute [local irreducible] Host.gather Host.scatterAdd Host.reduceAdd in
set_option maxRecDepth 8192 in
-- the fold nests eighty-four deep, and each of the forty-odd reads on the way to the arguments descends it
set_option maxHeartbeats 1000000 in
theorem out_eq (V : Valuation τ sig (Elt F)) :
    after ops V (main_v61 : DevRef τ sig)
      = Term.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp <;> rfl

set_option maxRecDepth 8192 in
theorem arg0_eq (V : Valuation τ sig (Elt F)) :
    after ops V (main_arg0 : DevRef τ sig) = V (main_arg0 : DevRef τ sig) := by
  after_results_simp <;> rfl

set_option maxRecDepth 8192 in
theorem arg1_eq (V : Valuation τ sig (Elt F)) :
    after ops V (main_arg1 : DevRef τ sig) = V (main_arg1 : DevRef τ sig) := by
  after_results_simp <;> rfl

set_option maxRecDepth 8192 in
theorem arg2_eq (V : Valuation τ sig (Elt F)) :
    after ops V (main_arg2 : DevRef τ sig) = V (main_arg2 : DevRef τ sig) := by
  after_results_simp <;> rfl

set_option maxRecDepth 8192 in
theorem arg3_eq (V : Valuation τ sig (Elt F)) :
    after ops V (main_arg3 : DevRef τ sig) = V (main_arg3 : DevRef τ sig) := by
  after_results_simp <;> rfl

set_option maxRecDepth 8192 in
theorem arg4_eq (V : Valuation τ sig (Elt F)) :
    after ops V (main_arg4 : DevRef τ sig) = V (main_arg4 : DevRef τ sig) := by
  after_results_simp <;> rfl

set_option maxRecDepth 8192 in
theorem arg5_eq (V : Valuation τ sig (Elt F)) :
    after ops V (main_arg5 : DevRef τ sig) = V (main_arg5 : DevRef τ sig) := by
  after_results_simp <;> rfl

set_option maxRecDepth 8192 in
theorem arg6_eq (V : Valuation τ sig (Elt F)) :
    after ops V (main_arg6 : DevRef τ sig) = V (main_arg6 : DevRef τ sig) := by
  after_results_simp <;> rfl

set_option maxRecDepth 8192 in
theorem arg7_eq (V : Valuation τ sig (Elt F)) :
    after ops V (main_arg7 : DevRef τ sig) = V (main_arg7 : DevRef τ sig) := by
  after_results_simp <;> rfl

set_option maxRecDepth 8192 in
theorem arg8_eq (V : Valuation τ sig (Elt F)) :
    after ops V (main_arg8 : DevRef τ sig) = V (main_arg8 : DevRef τ sig) := by
  after_results_simp <;> rfl

set_option maxRecDepth 8192 in
theorem arg9_eq (V : Valuation τ sig (Elt F)) :
    after ops V (main_arg9 : DevRef τ sig) = V (main_arg9 : DevRef τ sig) := by
  after_results_simp <;> rfl

set_option maxRecDepth 8192 in
theorem arg10_eq (V : Valuation τ sig (Elt F)) :
    after ops V (main_arg10 : DevRef τ sig) = V (main_arg10 : DevRef τ sig) := by
  after_results_simp <;> rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = Term.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  exact (θ_run defs _ _).mono
    (fun _ h c => ⟨(h c main_v61).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c))⟩)
    (run_seq scopedRefs_eq scopedSems_eq defs main (fun _ => ops) main_eq (fun _ => ops_sub) m ρ)

end Cert.ReferenceIdeal.RefRun

end
-- ==== Proof.Bridge.lean ====
/-
  Why the kernel's result term is the reference's.

  The kernel differs from the reference in one place only: it takes the neighbour mean as the edge sum TIMES the
  reciprocal `1 / max(indegree, 1)`, where the reference DIVIDES the edge sum by `max(indegree, 1)`. On the extended
  reals `x / d` is `x · d⁻¹` whenever `d ≠ 0`, so `1 / d = d⁻¹` and `s · (1 / d) = s / d` for every `s`, infinite or
  not; and `d = max(·, 1) ≥ 1` is never zero. Everything else — the gathers, the edge sums, the pooling, the dense
  parts, the rectifier — is the same term on both sides.
-/
import proofs.«176279_j24756191494706_1_alg».proof.Proof.KernelTerm
import Idealize.ShloMosaic.Lib.KernelVsHost
import Idealize.ShloMosaic.PureOps.Ideal.Laws
import Idealize.ShloMosaic.PureOps.IdealRules

noncomputable section

namespace Cert.ReferenceIdeal.Term

open Idealize.ShloMosaic Cert.ReferenceIdeal Cert.ReferenceIdeal.Facts₀

variable {F : FTy → Type} [FloatOps F] [Cert.ReferenceIdeal.Facts]

/-- The word `0x3F800000` is the number one. -/
theorem one_f32 : Ideal.ofBits .f32 0x3F800000#32 = 1 := IdealRules.sign_bit.ideal_onePat .f32

/-- Multiplying by the reciprocal of a value that is at least one is dividing by it, on every extended real. -/
theorem mul_div_one {s d : EReal} (hd : 1 ≤ d) : s * Ideal.div 1 d = Ideal.div s d := by
  have hne : d ≠ 0 := ne_of_gt (lt_of_lt_of_le zero_lt_one hd)
  rw [Ideal.div, Ideal.div, if_neg hne, if_neg hne, one_mul]

/-- Multiplying an array by the reciprocal of `max(D, 1)` is dividing it by `max(D, 1)`, entry by entry, for any
    arrays at all (`one` is any array that reads one everywhere). -/
theorem mulRecip_eq_div {S : Shape} (N D one : FVec Ideal S .f32) (hone : ∀ i, one i = (1 : EReal)) :
    mulf N (Host.divf one (maximumf D one)) = Host.divf N (maximumf D one) := by
  funext i
  simp only [mulf, Host.divf, maximumf]
  rw [hone i, Ideal.mulf_def, Ideal.hostDivf_def, Ideal.hostDivf_def, Ideal.maximumf_def]
  exact mul_div_one (le_max_right _ _)

/-- Spreading a per-node value over the feature axis commutes with an entrywise quotient … -/
theorem perNode_divf (a b : FVec F S102000 .f32) : perNode (Host.divf a b) = Host.divf (perNode a) (perNode b) := rfl

/-- … and with an entrywise maximum. -/
theorem perNode_maximumf (a b : FVec F S102000 .f32) : perNode (maximumf a b) = maximumf (perNode a) (perNode b) := rfl

/-- The splat of the word `0x3F800000` over the nodes, spread over the feature axis, reads one everywhere. -/
theorem perNode_one (i : S102000x128.Idx) :
    perNode (F := Ideal) (broadcastInDim S102000 ![] bcast_S_S102000 (constant S_ .f32 0x3F800000#32)) i = (1 : EReal) :=
  one_f32

/-- The kernel's neighbour mean is the reference's: the edge sum times `1 / max(indegree, 1)` is the edge sum over
    `max(indegree, 1)`. The edge sum and the indegree are never opened. -/
theorem nmeanK_eq (h : FVec Ideal S102000x128 .f32) (src dst : IVec S1000000 32) :
    nmeanK (F := Ideal) h src dst = nmeanR h src dst := by
  unfold nmeanK nmeanR invDeg degMax
  rw [perNode_divf, perNode_maximumf]
  exact mulRecip_eq_div _ _ _ perNode_one

/-- The kernel's result is the reference's. -/
theorem kernOut_eq (wids : IVec S102000x12 32) (len : FVec Ideal S102000 .f32) (src dst : IVec S1000000 32)
    (emb : FVec Ideal S30001x128 .f32) (w1s w1n : FVec Ideal S128x128 .f32) (b1 : FVec Ideal S128 .f32)
    (w2s w2n : FVec Ideal S128x128 .f32) (b2 : FVec Ideal S128 .f32) :
    kernOut (F := Ideal) wids len src dst emb w1s w1n b1 w2s w2n b2 = refOut wids len src dst emb w1s w1n b1 w2s w2n b2 := by
  simp only [kernOut, refOut, nmeanK_eq]

end Cert.ReferenceIdeal.Term

end
-- ==== Proof.lean ====
/-
  The certificate of a two-layer mean-aggregation graph network over mean-pooled word embeddings: a program of three
  kernel regions (mean pooling; a dense layer with the leaky rectifier; a dense layer) among host gathers and edge sums,
  against a plain host reference.

  Both programs compute, at the ideal values, `layer₂(leaky(layer₁(pool)))` with
  `layer(h) = h · W_self + mean_neigh(h) · W_neigh + b`. They differ in one place: the kernel program multiplies the edge
  sum by `1 / max(indegree, 1)` where the reference divides it by `max(indegree, 1)`; on the extended reals the two agree
  because the divisor is at least one, hence not zero (Proof/Bridge.lean). Every other difference is one of tiling
  (blocks of 1200 or 3000 nodes against whole arrays) or of spelling (a product accumulated into zero against a dot; a
  lane sum against a reduce), and each region's array after its run is shown to be the reference's own term of the
  arrays the region reads (Proof/Region0.lean, Region1.lean, Region2.lean). The kernel program's run with its result
  named is Proof/KernelRun.lean, the reference's run Proof/RefRun.lean. The ideal pass rewrote nothing, so the
  idealization claim is trivial; no precondition is used.
-/
import proofs.«176279_j24756191494706_1_alg».proof.Defs
import proofs.«176279_j24756191494706_1_alg».proof.Proof.Gen.Kernel
import proofs.«176279_j24756191494706_1_alg».proof.Proof.Gen.Kernel.Skeleton
import proofs.«176279_j24756191494706_1_alg».proof.Proof.Gen.Kernel.Launch
import proofs.«176279_j24756191494706_1_alg».proof.Proof.Gen.Kernel.Points
import proofs.«176279_j24756191494706_1_alg».proof.Proof.Gen.Kernel.Frame
import proofs.«176279_j24756191494706_1_alg».proof.Proof.Gen.KernelIdeal
import proofs.«176279_j24756191494706_1_alg».proof.Proof.Gen.KernelIdeal.Skeleton
import proofs.«176279_j24756191494706_1_alg».proof.Proof.Gen.KernelIdeal.Launch
import proofs.«176279_j24756191494706_1_alg».proof.Proof.Gen.KernelIdeal.Points
import proofs.«176279_j24756191494706_1_alg».proof.Proof.Gen.KernelIdeal.Frame
import proofs.«176279_j24756191494706_1_alg».proof.Proof.Gen.ReferenceIdeal
import proofs.«176279_j24756191494706_1_alg».proof.Proof.Gen.Pre_finite_inputs
import proofs.«176279_j24756191494706_1_alg».proof.Proof.KernelRun
import proofs.«176279_j24756191494706_1_alg».proof.Proof.KernelValue
import proofs.«176279_j24756191494706_1_alg».proof.Proof.RefRun
import proofs.«176279_j24756191494706_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the kernel's result term of the (agreeing) arguments: the kernel program by its regions'
    arrays chained through its host operations, the reference because its own result term is that term. -/
theorem algebraic : Cert.algebraic_KernelIdeal_ReferenceIdeal := by
  intro m ρ m' ρ' _ hagree
  refine ⟨fun c => Cert.ReferenceIdeal.Term.kernOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value.result m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10⟩ := hagree c
    rw [e0, e1, e2, e3, e4, e5, e6, e7, e8, e9, e10]
    exact (Cert.ReferenceIdeal.Term.kernOut_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
